-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x5 : Shape := ⟨2, ![16, 5]⟩
abbrev S5 : Shape := ⟨1, ![5]⟩
abbrev S5x16 : Shape := ⟨2, ![5, 16]⟩
abbrev S16x32 : Shape := ⟨2, ![16, 32]⟩
abbrev S32x64 : Shape := ⟨2, ![32, 64]⟩
abbrev S64x128 : Shape := ⟨2, ![64, 128]⟩
abbrev S128x256 : Shape := ⟨2, ![128, 256]⟩
abbrev S256x512 : Shape := ⟨2, ![256, 512]⟩
abbrev S512 : Shape := ⟨1, ![512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x5 : S_.BroadcastsInDim S16x5 (![] : Fin 0 → Fin S16x5.rank)
  reducesTo_S16x5_S_d0_1 : S16x5.ReducesTo [0, 1] S_
  bcast_S_S5 : S_.BroadcastsInDim S5 (![] : Fin 0 → Fin S5.rank)
  reducesTo_S5_S_d0 : S5.ReducesTo [0] S_
  bcast_S_S5x16 : S_.BroadcastsInDim S5x16 (![] : Fin 0 → Fin S5x16.rank)
  reducesTo_S5x16_S_d0_1 : S5x16.ReducesTo [0, 1] S_
  bcast_S_S16x32 : S_.BroadcastsInDim S16x32 (![] : Fin 0 → Fin S16x32.rank)
  reducesTo_S16x32_S_d0_1 : S16x32.ReducesTo [0, 1] S_
  bcast_S_S32x64 : S_.BroadcastsInDim S32x64 (![] : Fin 0 → Fin S32x64.rank)
  reducesTo_S32x64_S_d0_1 : S32x64.ReducesTo [0, 1] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part7 {F : FTy → Type} [FloatOps F] (main_v118 : IVec S_ 1) (main_v119 : FVec F S512 .f32) : IVec S_ 1 :=
  let main_cst_46 : FVec F S_ .f32 := constant S_ .f32 0x7F800000#32
  let main_v120 : FVec F S512 .f32 := broadcastInDim S512 ![] bcast_S_S512 main_cst_46
  let main_v121 : IVec S512 1 := cmpf .olt main_v119 main_v120
  let main_c_47 : IVec S_ 1 := constantI S_ 1 1#1
  let main_v122 : IVec S_ 1 := (fun x v => Host.reduce IntOp.andi x v reducesTo_S512_S_d0 h_S_) main_v121 main_c_47
  let main_v123 : IVec S_ 1 := andi main_v118 main_v122
  main_v123

def fn_part6 {F : FTy → Type} [FloatOps F] (main_arg21 : FVec F S128x256 .f32) (main_arg22 : FVec F S256 .f32) (main_arg23 : FVec F S256x512 .f32) (main_arg24 : FVec F S512 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x256 .f32 := Host.absf main_arg21
  let main_cst_40 : FVec F S_ .f32 := constant S_ .f32 0x7F800000#32
  let main_v105 : FVec F S128x256 .f32 := broadcastInDim S128x256 ![] bcast_S_S128x256 main_cst_40
  let main_v106 : IVec S128x256 1 := cmpf .olt main_v104 main_v105
  let main_c_41 : IVec S_ 1 := constantI S_ 1 1#1
  let main_v107 : IVec S_ 1 := (fun x v => Host.reduce IntOp.andi x v reducesTo_S128x256_S_d0_1 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256x512 .f32 := Host.absf main_arg23
  let main_cst_44 : FVec F S_ .f32 := constant S_ .f32 0x7F800000#32
  let main_v115 : FVec F S256x512 .f32 := broadcastInDim S256x512 ![] bcast_S_S256x512 main_cst_44
  let main_v116 : IVec S256x512 1 := cmpf .olt main_v114 main_v115
  let main_c_45 : IVec S_ 1 := constantI S_ 1 1#1
  let main_v117 : IVec S_ 1 := (fun x v => Host.reduce IntOp.andi x v reducesTo_S256x512_S_d0_1 h_S_) main_v116 main_c_45
  let main_v118 : IVec S_ 1 := andi main_v113 main_v117
  let main_v119 : FVec F S512 .f32 := Host.absf main_arg24
  fn_part7 (F := F) main_v118 main_v119

def fn_part5 {F : FTy → Type} [FloatOps F] (main_arg18 : FVec F S64 .f32) (main_arg19 : FVec F S64x128 .f32) (main_arg20 : FVec F S128 .f32) (main_arg21 : FVec F S128x256 .f32) (main_arg22 : FVec F S256 .f32) (main_arg23 : FVec F S256x512 .f32) (main_arg24 : FVec F S512 .f32) (main_v83 : IVec S_ 1) (main_v84 : FVec F S32x64 .f32) (main_cst_32 : FVec F S_ .f32) : IVec S_ 1 :=
  let main_v85 : FVec F S32x64 .f32 := broadcastInDim S32x64 ![] bcast_S_S32x64 main_cst_32
  let main_v86 : IVec S32x64 1 := cmpf .olt main_v84 main_v85
  let main_c_33 : IVec S_ 1 := constantI S_ 1 1#1
  let main_v87 : IVec S_ 1 := (fun x v => Host.reduce IntOp.andi x v reducesTo_S32x64_S_d0_1 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x128 .f32 := Host.absf main_arg19
  let main_cst_36 : FVec F S_ .f32 := constant S_ .f32 0x7F800000#32
  let main_v95 : FVec F S64x128 .f32 := broadcastInDim S64x128 ![] bcast_S_S64x128 main_cst_36
  let main_v96 : IVec S64x128 1 := cmpf .olt main_v94 main_v95
  let main_c_37 : IVec S_ 1 := constantI S_ 1 1#1
  let main_v97 : IVec S_ 1 := (fun x v => Host.reduce IntOp.andi x v reducesTo_S64x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S16 .f32) (main_arg15 : FVec F S16x32 .f32) (main_arg16 : FVec F S32 .f32) (main_arg17 : FVec F S32x64 .f32) (main_arg18 : FVec F S64 .f32) (main_arg19 : FVec F S64x128 .f32) (main_arg20 : FVec F S128 .f32) (main_arg21 : FVec F S128x256 .f32) (main_arg22 : FVec F S256 .f32) (main_arg23 : FVec F S256x512 .f32) (main_arg24 : FVec F S512 .f32) (main_v63 : IVec S_ 1) (main_v67 : IVec S_ 1) : IVec S_ 1 :=
  let main_v68 : IVec S_ 1 := andi main_v63 main_v67
  let main_v69 : FVec F S16 .f32 := Host.absf main_arg14
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S16x32 .f32 := Host.absf main_arg15
  let main_cst_28 : FVec F S_ .f32 := constant S_ .f32 0x7F800000#32
  let main_v75 : FVec F S16x32 .f32 := broadcastInDim S16x32 ![] bcast_S_S16x32 main_cst_28
  let main_v76 : IVec S16x32 1 := cmpf .olt main_v74 main_v75
  let main_c_29 : IVec S_ 1 := constantI S_ 1 1#1
  let main_v77 : IVec S_ 1 := (fun x v => Host.reduce IntOp.andi x v reducesTo_S16x32_S_d0_1 h_S_) main_v76 main_c_29
  let main_v78 : IVec S_ 1 := andi main_v73 main_v77
  let main_v79 : FVec F S32 .f32 := Host.absf main_arg16
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x64 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S16x5 .f32) (main_arg12 : FVec F S5 .f32) (main_arg13 : FVec F S5x16 .f32) (main_arg14 : FVec F S16 .f32) (main_arg15 : FVec F S16x32 .f32) (main_arg16 : FVec F S32 .f32) (main_arg17 : FVec F S32x64 .f32) (main_arg18 : FVec F S64 .f32) (main_arg19 : FVec F S64x128 .f32) (main_arg20 : FVec F S128 .f32) (main_arg21 : FVec F S128x256 .f32) (main_arg22 : FVec F S256 .f32) (main_arg23 : FVec F S256x512 .f32) (main_arg24 : FVec F S512 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x5 .f32 := Host.absf main_arg11
  let main_cst_20 : FVec F S_ .f32 := constant S_ .f32 0x7F800000#32
  let main_v55 : FVec F S16x5 .f32 := broadcastInDim S16x5 ![] bcast_S_S16x5 main_cst_20
  let main_v56 : IVec S16x5 1 := cmpf .olt main_v54 main_v55
  let main_c_21 : IVec S_ 1 := constantI S_ 1 1#1
  let main_v57 : IVec S_ 1 := (fun x v => Host.reduce IntOp.andi x v reducesTo_S16x5_S_d0_1 h_S_) main_v56 main_c_21
  let main_v58 : IVec S_ 1 := andi main_v53 main_v57
  let main_v59 : FVec F S5 .f32 := Host.absf main_arg12
  let main_cst_22 : FVec F S_ .f32 := constant S_ .f32 0x7F800000#32
  let main_v60 : FVec F S5 .f32 := broadcastInDim S5 ![] bcast_S_S5 main_cst_22
  let main_v61 : IVec S5 1 := cmpf .olt main_v59 main_v60
  let main_c_23 : IVec S_ 1 := constantI S_ 1 1#1
  let main_v62 : IVec S_ 1 := (fun x v => Host.reduce IntOp.andi x v reducesTo_S5_S_d0 h_S_) main_v61 main_c_23
  let main_v63 : IVec S_ 1 := andi main_v58 main_v62
  let main_v64 : FVec F S5x16 .f32 := Host.absf main_arg13
  let main_cst_24 : FVec F S_ .f32 := constant S_ .f32 0x7F800000#32
  let main_v65 : FVec F S5x16 .f32 := broadcastInDim S5x16 ![] bcast_S_S5x16 main_cst_24
  let main_v66 : IVec S5x16 1 := cmpf .olt main_v64 main_v65
  let main_c_25 : IVec S_ 1 := constantI S_ 1 1#1
  let main_v67 : IVec S_ 1 := (fun x v => Host.reduce IntOp.andi x v reducesTo_S5x16_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S64x32 .f32) (main_arg8 : FVec F S32 .f32) (main_arg9 : FVec F S32x16 .f32) (main_arg10 : FVec F S16 .f32) (main_arg11 : FVec F S16x5 .f32) (main_arg12 : FVec F S5 .f32) (main_arg13 : FVec F S5x16 .f32) (main_arg14 : FVec F S16 .f32) (main_arg15 : FVec F S16x32 .f32) (main_arg16 : FVec F S32 .f32) (main_arg17 : FVec F S32x64 .f32) (main_arg18 : FVec F S64 .f32) (main_arg19 : FVec F S64x128 .f32) (main_arg20 : FVec F S128 .f32) (main_arg21 : FVec F S128x256 .f32) (main_arg22 : FVec F S256 .f32) (main_arg23 : FVec F S256x512 .f32) (main_arg24 : FVec F S512 .f32) (main_v33 : IVec S_ 1) : IVec S_ 1 :=
  let main_v34 : FVec F S64x32 .f32 := Host.absf main_arg7
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x16 .f32 := Host.absf main_arg9
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S128 .f32) (main_arg5 : FVec F S128x64 .f32) (main_arg6 : FVec F S64 .f32) (main_arg7 : FVec F S64x32 .f32) (main_arg8 : FVec F S32 .f32) (main_arg9 : FVec F S32x16 .f32) (main_arg10 : FVec F S16 .f32) (main_arg11 : FVec F S16x5 .f32) (main_arg12 : FVec F S5 .f32) (main_arg13 : FVec F S5x16 .f32) (main_arg14 : FVec F S16 .f32) (main_arg15 : FVec F S16x32 .f32) (main_arg16 : FVec F S32 .f32) (main_arg17 : FVec F S32x64 .f32) (main_arg18 : FVec F S64 .f32) (main_arg19 : FVec F S64x128 .f32) (main_arg20 : FVec F S128 .f32) (main_arg21 : FVec F S128x256 .f32) (main_arg22 : FVec F S256 .f32) (main_arg23 : FVec F S256x512 .f32) (main_arg24 : FVec F S512 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S131072x512 .f32) (main_arg1 : FVec F S512x256 .f32) (main_arg2 : FVec F S256 .f32) (main_arg3 : FVec F S256x128 .f32) (main_arg4 : FVec F S128 .f32) (main_arg5 : FVec F S128x64 .f32) (main_arg6 : FVec F S64 .f32) (main_arg7 : FVec F S64x32 .f32) (main_arg8 : FVec F S32 .f32) (main_arg9 : FVec F S32x16 .f32) (main_arg10 : FVec F S16 .f32) (main_arg11 : FVec F S16x5 .f32) (main_arg12 : FVec F S5 .f32) (main_arg13 : FVec F S5x16 .f32) (main_arg14 : FVec F S16 .f32) (main_arg15 : FVec F S16x32 .f32) (main_arg16 : FVec F S32 .f32) (main_arg17 : FVec F S32x64 .f32) (main_arg18 : FVec F S64 .f32) (main_arg19 : FVec F S64x128 .f32) (main_arg20 : FVec F S128 .f32) (main_arg21 : FVec F S128x256 .f32) (main_arg22 : FVec F S256 .f32) (main_arg23 : FVec F S256x512 .f32) (main_arg24 : FVec F S512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S131072x512 : Shape := ⟨2, ![131072, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x5 : Shape := ⟨2, ![16, 5]⟩
abbrev S5 : Shape := ⟨1, ![5]⟩
abbrev S5x16 : Shape := ⟨2, ![5, 16]⟩
abbrev S16x32 : Shape := ⟨2, ![16, 32]⟩
abbrev S32x64 : Shape := ⟨2, ![32, 64]⟩
abbrev S64x128 : Shape := ⟨2, ![64, 128]⟩
abbrev S128x256 : Shape := ⟨2, ![128, 256]⟩
abbrev S256x512 : Shape := ⟨2, ![256, 512]⟩
abbrev S512 : Shape := ⟨1, ![512]⟩
abbrev S1x256 : Shape := ⟨2, ![1, 256]⟩
abbrev S1x128 : Shape := ⟨2, ![1, 128]⟩
abbrev S1x64 : Shape := ⟨2, ![1, 64]⟩
abbrev S1x32 : Shape := ⟨2, ![1, 32]⟩
abbrev S1x16 : Shape := ⟨2, ![1, 16]⟩
abbrev S1x5 : Shape := ⟨2, ![1, 5]⟩
abbrev S1x512 : Shape := ⟨2, ![1, 512]⟩
abbrev S2048x512 : Shape := ⟨2, ![2048, 512]⟩
abbrev S1024x512 : Shape := ⟨2, ![1024, 512]⟩
abbrev S1024x256 : Shape := ⟨2, ![1024, 256]⟩
abbrev S1024x128 : Shape := ⟨2, ![1024, 128]⟩
abbrev S1024x64 : Shape := ⟨2, ![1024, 64]⟩
abbrev S1024x32 : Shape := ⟨2, ![1024, 32]⟩
abbrev S1024x16 : Shape := ⟨2, ![1024, 16]⟩
abbrev S1024x5 : Shape := ⟨2, ![1024, 5]⟩

abbrev nBuf : Space → Nat
  | .hbm => 50
  | .vmem => 28
  | .smem => 0
  | _ => 0

abbrev bufTy : (tb : Table) → Fin (tcTables nBuf tb) → BufTy
  | .hbm, ⟨0, _⟩ => ⟨S131072x512, .f32⟩
  | .hbm, ⟨1, _⟩ => ⟨S512x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x16, .f32⟩
  | .hbm, ⟨10, _⟩ => ⟨S16, .f32⟩
  | .hbm, ⟨11, _⟩ => ⟨S16x5, .f32⟩
  | .hbm, ⟨12, _⟩ => ⟨S5, .f32⟩
  | .hbm, ⟨13, _⟩ => ⟨S5x16, .f32⟩
  | .hbm, ⟨14, _⟩ => ⟨S16, .f32⟩
  | .hbm, ⟨15, _⟩ => ⟨S16x32, .f32⟩
  | .hbm, ⟨16, _⟩ => ⟨S32, .f32⟩
  | .hbm, ⟨17, _⟩ => ⟨S32x64, .f32⟩
  | .hbm, ⟨18, _⟩ => ⟨S64, .f32⟩
  | .hbm, ⟨19, _⟩ => ⟨S64x128, .f32⟩
  | .hbm, ⟨20, _⟩ => ⟨S128, .f32⟩
  | .hbm, ⟨21, _⟩ => ⟨S128x256, .f32⟩
  | .hbm, ⟨22, _⟩ => ⟨S256, .f32⟩
  | .hbm, ⟨23, _⟩ => ⟨S256x512, .f32⟩
  | .hbm, ⟨24, _⟩ => ⟨S512, .f32⟩
  | .hbm, ⟨25, _⟩ => ⟨S512x256, .bf16⟩
  | .hbm, ⟨26, _⟩ => ⟨S256x128, .bf16⟩
  | .hbm, ⟨27, _⟩ => ⟨S128x64, .bf16⟩
  | .hbm, ⟨28, _⟩ => ⟨S64x32, .bf16⟩
  | .hbm, ⟨29, _⟩ => ⟨S32x16, .bf16⟩
  | .hbm, ⟨30, _⟩ => ⟨S16x5, .bf16⟩
  | .hbm, ⟨31, _⟩ => ⟨S5x16, .bf16⟩
  | .hbm, ⟨32, _⟩ => ⟨S16x32, .bf16⟩
  | .hbm, ⟨33, _⟩ => ⟨S32x64, .bf16⟩
  | .hbm, ⟨34, _⟩ => ⟨S64x128, .bf16⟩
  | .hbm, ⟨35, _⟩ => ⟨S128x256, .bf16⟩
  | .hbm, ⟨36, _⟩ => ⟨S256x512, .bf16⟩
  | .hbm, ⟨37, _⟩ => ⟨S1x256, .f32⟩
  | .hbm, ⟨38, _⟩ => ⟨S1x128, .f32⟩
  | .hbm, ⟨39, _⟩ => ⟨S1x64, .f32⟩
  | .hbm, ⟨40, _⟩ => ⟨S1x32, .f32⟩
  | .hbm, ⟨41, _⟩ => ⟨S1x16, .f32⟩
  | .hbm, ⟨42, _⟩ => ⟨S1x5, .f32⟩
  | .hbm, ⟨43, _⟩ => ⟨S1x16, .f32⟩
  | .hbm, ⟨44, _⟩ => ⟨S1x32, .f32⟩
  | .hbm, ⟨45, _⟩ => ⟨S1x64, .f32⟩
  | .hbm, ⟨46, _⟩ => ⟨S1x128, .f32⟩
  | .hbm, ⟨47, _⟩ => ⟨S1x256, .f32⟩
  | .hbm, ⟨48, _⟩ => ⟨S1x512, .f32⟩
  | .hbm, ⟨49, _⟩ => ⟨S131072x512, .f32⟩
  | .local _ .vmem, ⟨0, _⟩ => ⟨S2048x512, .f32⟩
  | .local _ .vmem, ⟨1, _⟩ => ⟨S2048x512, .f32⟩
  | .local _ .vmem, ⟨2, _⟩ => ⟨S512x256, .bf16⟩
  | .local _ .vmem, ⟨3, _⟩ => ⟨S1x256, .f32⟩
  | .local _ .vmem, ⟨4, _⟩ => ⟨S256x128, .bf16⟩
  | .local _ .vmem, ⟨5, _⟩ => ⟨S1x128, .f32⟩
  | .local _ .vmem, ⟨6, _⟩ => ⟨S128x64, .bf16⟩
  | .local _ .vmem, ⟨7, _⟩ => ⟨S1x64, .f32⟩
  | .local _ .vmem, ⟨8, _⟩ => ⟨S64x32, .bf16⟩
  | .local _ .vmem, ⟨9, _⟩ => ⟨S1x32, .f32⟩
  | .local _ .vmem, ⟨10, _⟩ => ⟨S32x16, .bf16⟩
  | .local _ .vmem, ⟨11, _⟩ => ⟨S1x16, .f32⟩
  | .local _ .vmem, ⟨12, _⟩ => ⟨S16x5, .bf16⟩
  | .local _ .vmem, ⟨13, _⟩ => ⟨S1x5, .f32⟩
  | .local _ .vmem, ⟨14, _⟩ => ⟨S5x16, .bf16⟩
  | .local _ .vmem, ⟨15, _⟩ => ⟨S1x16, .f32⟩
  | .local _ .vmem, ⟨16, _⟩ => ⟨S16x32, .bf16⟩
  | .local _ .vmem, ⟨17, _⟩ => ⟨S1x32, .f32⟩
  | .local _ .vmem, ⟨18, _⟩ => ⟨S32x64, .bf16⟩
  | .local _ .vmem, ⟨19, _⟩ => ⟨S1x64, .f32⟩
  | .local _ .vmem, ⟨20, _⟩ => ⟨S64x128, .bf16⟩
  | .local _ .vmem, ⟨21, _⟩ => ⟨S1x128, .f32⟩
  | .local _ .vmem, ⟨22, _⟩ => ⟨S128x256, .bf16⟩
  | .local _ .vmem, ⟨23, _⟩ => ⟨S1x256, .f32⟩
  | .local _ .vmem, ⟨24, _⟩ => ⟨S256x512, .bf16⟩
  | .local _ .vmem, ⟨25, _⟩ => ⟨S1x512, .f32⟩
  | .local _ .vmem, ⟨26, _⟩ => ⟨S2048x512, .f32⟩
  | .local _ .vmem, ⟨27, _⟩ => ⟨S2048x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg25_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem25_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x16 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x5 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x5 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S5x16 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x32 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x64 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x512 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S2048x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

class Facts₀ : Prop where
  bitsLt_bf16_f32 : FTy.bits .bf16 < FTy.bits .f32
  shapeCasts_S256_S1x256 : S256.ShapeCasts S1x256
  shapeCasts_S128_S1x128 : S128.ShapeCasts S1x128
  shapeCasts_S64_S1x64 : S64.ShapeCasts S1x64
  shapeCasts_S32_S1x32 : S32.ShapeCasts S1x32
  shapeCasts_S16_S1x16 : S16.ShapeCasts S1x16
  shapeCasts_S5_S1x5 : S5.ShapeCasts S1x5
  shapeCasts_S512_S1x512 : S512.ShapeCasts S1x512
  inb_S2048x512_S1024x512_0_0 : ∀ a, (![0, 0] : Fin 2 → Nat) a + S1024x512.size a ≤ S2048x512.size a
  h_S1024x512 : 0 < S1024x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  inb_S16x5_S16x5_0_0 : ∀ a, (![0, 0] : Fin 2 → Nat) a + S16x5.size a ≤ S16x5.size a
  h_S16x5 : 0 < S16x5.numel
  shapeCasts_S16x5_S16x5 : S16x5.ShapeCasts S16x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S1024x5 : S1x5.Broadcasts S1024x5
  inb_S5x16_S5x16_0_0 : ∀ a, (![0, 0] : Fin 2 → Nat) a + S5x16.size a ≤ S5x16.size a
  h_S5x16 : 0 < S5x16.numel
  shapeCasts_S5x16_S5x16 : S5x16.ShapeCasts S5x16
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S2048x512_S1024x512_1024_0 : ∀ a, (![1024, 0] : Fin 2 → Nat) a + S1024x512.size a ≤ S2048x512.size a
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x64_S64x32_S1024x32_1_0_0_1_n_n_wf : DotDims.WF S1024x64 S64x32 S1024x32 [1] [0] [0] [1] [] []
  dot_S1024x32_S32x16_S1024x16_1_0_0_1_n_n_wf : DotDims.WF S1024x32 S32x16 S1024x16 [1] [0] [0] [1] [] []
  dot_S1024x16_S16x5_S1024x5_1_0_0_1_n_n_wf : DotDims.WF S1024x16 S16x5 S1024x5 [1] [0] [0] [1] [] []
  dot_S1024x5_S5x16_S1024x16_1_0_0_1_n_n_wf : DotDims.WF S1024x5 S5x16 S1024x16 [1] [0] [0] [1] [] []
  dot_S1024x16_S16x32_S1024x32_1_0_0_1_n_n_wf : DotDims.WF S1024x16 S16x32 S1024x32 [1] [0] [0] [1] [] []
  dot_S1024x32_S32x64_S1024x64_1_0_0_1_n_n_wf : DotDims.WF S1024x32 S32x64 S1024x64 [1] [0] [0] [1] [] []
  dot_S1024x64_S64x128_S1024x128_1_0_0_1_n_n_wf : DotDims.WF S1024x64 S64x128 S1024x128 [1] [0] [0] [1] [] []
  dot_S1024x128_S128x256_S1024x256_1_0_0_1_n_n_wf : DotDims.WF S1024x128 S128x256 S1024x256 [1] [0] [0] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .bf16 = 32 ∨ (Rect.block (s := S64x32) S64x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x16.size a ≤ S32x16.size a
  hwx0_9 : ∀ i : grid0.Coords, EltTy.bits .bf16 = 32 ∨ (Rect.block (s := S32x16) S32x16.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x16.size a ≤ S1x16.size a
  hwx0_10 : ∀ i : grid0.Coords, EltTy.bits .f32 = 32 ∨ (Rect.block (s := S1x16) S1x16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16x5.size a ≤ S16x5.size a
  hwx0_11 : ∀ i : grid0.Coords, EltTy.bits .bf16 = 32 ∨ (Rect.block (s := S16x5) S16x5.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x5.size a ≤ S1x5.size a
  hwx0_12 : ∀ i : grid0.Coords, EltTy.bits .f32 = 32 ∨ (Rect.block (s := S1x5) S1x5.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S5x16.size a ≤ S5x16.size a
  hwx0_13 : ∀ i : grid0.Coords, EltTy.bits .bf16 = 32 ∨ (Rect.block (s := S5x16) S5x16.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x16.size a ≤ S1x16.size a
  hwx0_14 : ∀ i : grid0.Coords, EltTy.bits .f32 = 32 ∨ (Rect.block (s := S1x16) S1x16.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S16x32.size a ≤ S16x32.size a
  hwx0_15 : ∀ i : grid0.Coords, EltTy.bits .bf16 = 32 ∨ (Rect.block (s := S16x32) S16x32.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x32.size a ≤ S1x32.size a
  hwx0_16 : ∀ i : grid0.Coords, EltTy.bits .f32 = 32 ∨ (Rect.block (s := S1x32) S1x32.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S32x64.size a ≤ S32x64.size a
  hwx0_17 : ∀ i : grid0.Coords, EltTy.bits .bf16 = 32 ∨ (Rect.block (s := S32x64) S32x64.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x64.size a ≤ S1x64.size a
  hwx0_18 : ∀ i : grid0.Coords, EltTy.bits .f32 = 32 ∨ (Rect.block (s := S1x64) S1x64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64x128.size a ≤ S64x128.size a
  hwx0_19 : ∀ i : grid0.Coords, EltTy.bits .bf16 = 32 ∨ (Rect.block (s := S64x128) S64x128.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x256.size a ≤ S128x256.size a
  hwx0_21 : ∀ i : grid0.Coords, EltTy.bits .bf16 = 32 ∨ (Rect.block (s := S128x256) S128x256.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x256.size a ≤ S1x256.size a
  hwx0_22 : ∀ i : grid0.Coords, EltTy.bits .f32 = 32 ∨ (Rect.block (s := S1x256) S1x256.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S256x512.size a ≤ S256x512.size a
  hwx0_23 : ∀ i : grid0.Coords, EltTy.bits .bf16 = 32 ∨ (Rect.block (s := S256x512) S256x512.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x512.size a ≤ S1x512.size a
  hwx0_24 : ∀ i : grid0.Coords, EltTy.bits .f32 = 32 ∨ (Rect.block (s := S1x512) S1x512.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S2048x512.size a ≤ S131072x512.size a
  hwx0_25 : ∀ i : grid0.Coords, EltTy.bits .f32 = 32 ∨ (Rect.block (s := S131072x512) S2048x512.size (cc0_transform_25 i) (hinb0_25 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def dot_S1024x16_S16x5_S1024x5_1_0_0_1_n_n : DotDims S1024x16 S16x5 S1024x5 where
  lhsContracting := [1]
  rhsContracting := [0]
  lhsNonContracting := [0]
  rhsNonContracting := [1]
  lhsBatch := []
  rhsBatch := []
  wf := dot_S1024x16_S16x5_S1024x5_1_0_0_1_n_n_wf
def dot_S1024x5_S5x16_S1024x16_1_0_0_1_n_n : DotDims S1024x5 S5x16 S1024x16 where
  lhsContracting := [1]
  rhsContracting := [0]
  lhsNonContracting := [0]
  rhsNonContracting := [1]
  lhsBatch := []
  rhsBatch := []
  wf := dot_S1024x5_S5x16_S1024x16_1_0_0_1_n_n_wf
def dot_S1024x16_S16x32_S1024x32_1_0_0_1_n_n : DotDims S1024x16 S16x32 S1024x32 where
  lhsContracting := [1]
  rhsContracting := [0]
  lhsNonContracting := [0]
  rhsNonContracting := [1]
  lhsBatch := []
  rhsBatch := []
  wf := dot_S1024x16_S16x32_S1024x32_1_0_0_1_n_n_wf
def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S32x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S1x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S16x5.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x5.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S5x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v18) S1x16.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v7) S16x32.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v19) S1x32.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v8) S32x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v20) S1x64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v9) S64x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v21) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v10) S128x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v22) S1x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v11) S256x512.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v23) S1x512.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v24) S2048x512.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S131072x512 : Shape := ⟨2, ![131072, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x5 : Shape := ⟨2, ![16, 5]⟩
abbrev S5 : Shape := ⟨1, ![5]⟩
abbrev S5x16 : Shape := ⟨2, ![5, 16]⟩
abbrev S16x32 : Shape := ⟨2, ![16, 32]⟩
abbrev S32x64 : Shape := ⟨2, ![32, 64]⟩
abbrev S64x128 : Shape := ⟨2, ![64, 128]⟩
abbrev S128x256 : Shape := ⟨2, ![128, 256]⟩
abbrev S256x512 : Shape := ⟨2, ![256, 512]⟩
abbrev S512 : Shape := ⟨1, ![512]⟩
abbrev S131072x256 : Shape := ⟨2, ![131072, 256]⟩
abbrev S1x256 : Shape := ⟨2, ![1, 256]⟩
abbrev S_ : Shape := ⟨0, ![]⟩
abbrev S131072x128 : Shape := ⟨2, ![131072, 128]⟩
abbrev S1x128 : Shape := ⟨2, ![1, 128]⟩
abbrev S131072x64 : Shape := ⟨2, ![131072, 64]⟩
abbrev S1x64 : Shape := ⟨2, ![1, 64]⟩
abbrev S131072x32 : Shape := ⟨2, ![131072, 32]⟩
abbrev S1x32 : Shape := ⟨2, ![1, 32]⟩
abbrev S131072x16 : Shape := ⟨2, ![131072, 16]⟩
abbrev S1x16 : Shape := ⟨2, ![1, 16]⟩
abbrev S131072x5 : Shape := ⟨2, ![131072, 5]⟩
abbrev S1x5 : Shape := ⟨2, ![1, 5]⟩
abbrev S1x512 : Shape := ⟨2, ![1, 512]⟩

abbrev nBuf : Space → Nat
  | .hbm => 109
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S512x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x16, .f32⟩
  | .hbm, ⟨10, _⟩ => ⟨S16, .f32⟩
  | .hbm, ⟨11, _⟩ => ⟨S16x5, .f32⟩
  | .hbm, ⟨12, _⟩ => ⟨S5, .f32⟩
  | .hbm, ⟨13, _⟩ => ⟨S5x16, .f32⟩
  | .hbm, ⟨14, _⟩ => ⟨S16, .f32⟩
  | .hbm, ⟨15, _⟩ => ⟨S16x32, .f32⟩
  | .hbm, ⟨16, _⟩ => ⟨S32, .f32⟩
  | .hbm, ⟨17, _⟩ => ⟨S32x64, .f32⟩
  | .hbm, ⟨18, _⟩ => ⟨S64, .f32⟩
  | .hbm, ⟨19, _⟩ => ⟨S64x128, .f32⟩
  | .hbm, ⟨20, _⟩ => ⟨S128, .f32⟩
  | .hbm, ⟨21, _⟩ => ⟨S128x256, .f32⟩
  | .hbm, ⟨22, _⟩ => ⟨S256, .f32⟩
  | .hbm, ⟨23, _⟩ => ⟨S256x512, .f32⟩
  | .hbm, ⟨24, _⟩ => ⟨S512, .f32⟩
  | .hbm, ⟨25, _⟩ => ⟨S131072x256, .f32⟩
  | .hbm, ⟨26, _⟩ => ⟨S1x256, .f32⟩
  | .hbm, ⟨27, _⟩ => ⟨S131072x256, .f32⟩
  | .hbm, ⟨28, _⟩ => ⟨S131072x256, .f32⟩
  | .hbm, ⟨29, _⟩ => ⟨S_, .f32⟩
  | .hbm, ⟨30, _⟩ => ⟨S131072x256, .f32⟩
  | .hbm, ⟨31, _⟩ => ⟨S131072x256, .f32⟩
  | .hbm, ⟨32, _⟩ => ⟨S131072x128, .f32⟩
  | .hbm, ⟨33, _⟩ => ⟨S1x128, .f32⟩
  | .hbm, ⟨34, _⟩ => ⟨S131072x128, .f32⟩
  | .hbm, ⟨35, _⟩ => ⟨S131072x128, .f32⟩
  | .hbm, ⟨36, _⟩ => ⟨S_, .f32⟩
  | .hbm, ⟨37, _⟩ => ⟨S131072x128, .f32⟩
  | .hbm, ⟨38, _⟩ => ⟨S131072x128, .f32⟩
  | .hbm, ⟨39, _⟩ => ⟨S131072x64, .f32⟩
  | .hbm, ⟨40, _⟩ => ⟨S1x64, .f32⟩
  | .hbm, ⟨41, _⟩ => ⟨S131072x64, .f32⟩
  | .hbm, ⟨42, _⟩ => ⟨S131072x64, .f32⟩
  | .hbm, ⟨43, _⟩ => ⟨S_, .f32⟩
  | .hbm, ⟨44, _⟩ => ⟨S131072x64, .f32⟩
  | .hbm, ⟨45, _⟩ => ⟨S131072x64, .f32⟩
  | .hbm, ⟨46, _⟩ => ⟨S131072x32, .f32⟩
  | .hbm, ⟨47, _⟩ => ⟨S1x32, .f32⟩
  | .hbm, ⟨48, _⟩ => ⟨S131072x32, .f32⟩
  | .hbm, ⟨49, _⟩ => ⟨S131072x32, .f32⟩
  | .hbm, ⟨50, _⟩ => ⟨S_, .f32⟩
  | .hbm, ⟨51, _⟩ => ⟨S131072x32, .f32⟩
  | .hbm, ⟨52, _⟩ => ⟨S131072x32, .f32⟩
  | .hbm, ⟨53, _⟩ => ⟨S131072x16, .f32⟩
  | .hbm, ⟨54, _⟩ => ⟨S1x16, .f32⟩
  | .hbm, ⟨55, _⟩ => ⟨S131072x16, .f32⟩
  | .hbm, ⟨56, _⟩ => ⟨S131072x16, .f32⟩
  | .hbm, ⟨57, _⟩ => ⟨S_, .f32⟩
  | .hbm, ⟨58, _⟩ => ⟨S131072x16, .f32⟩
  | .hbm, ⟨59, _⟩ => ⟨S131072x16, .f32⟩
  | .hbm, ⟨60, _⟩ => ⟨S131072x5, .f32⟩
  | .hbm, ⟨61, _⟩ => ⟨S1x5, .f32⟩
  | .hbm, ⟨62, _⟩ => ⟨S131072x5, .f32⟩
  | .hbm, ⟨63, _⟩ => ⟨S131072x5, .f32⟩
  | .hbm, ⟨64, _⟩ => ⟨S_, .f32⟩
  | .hbm, ⟨65, _⟩ => ⟨S131072x5, .f32⟩
  | .hbm, ⟨66, _⟩ => ⟨S131072x5, .f32⟩
  | .hbm, ⟨67, _⟩ => ⟨S131072x16, .f32⟩
  | .hbm, ⟨68, _⟩ => ⟨S1x16, .f32⟩
  | .hbm, ⟨69, _⟩ => ⟨S131072x16, .f32⟩
  | .hbm, ⟨70, _⟩ => ⟨S131072x16, .f32⟩
  | .hbm, ⟨71, _⟩ => ⟨S_, .f32⟩
  | .hbm, ⟨72, _⟩ => ⟨S131072x16, .f32⟩
  | .hbm, ⟨73, _⟩ => ⟨S131072x16, .f32⟩
  | .hbm, ⟨74, _⟩ => ⟨S131072x32, .f32⟩
  | .hbm, ⟨75, _⟩ => ⟨S1x32, .f32⟩
  | .hbm, ⟨76, _⟩ => ⟨S131072x32, .f32⟩
  | .hbm, ⟨77, _⟩ => ⟨S131072x32, .f32⟩
  | .hbm, ⟨78, _⟩ => ⟨S_, .f32⟩
  | .hbm, ⟨79, _⟩ => ⟨S131072x32, .f32⟩
  | .hbm, ⟨80, _⟩ => ⟨S131072x32, .f32⟩
  | .hbm, ⟨81, _⟩ => ⟨S131072x64, .f32⟩
  | .hbm, ⟨82, _⟩ => ⟨S1x64, .f32⟩
  | .hbm, ⟨83, _⟩ => ⟨S131072x64, .f32⟩
  | .hbm, ⟨84, _⟩ => ⟨S131072x64, .f32⟩
  | .hbm, ⟨85, _⟩ => ⟨S_, .f32⟩
  | .hbm, ⟨86, _⟩ => ⟨S131072x64, .f32⟩
  | .hbm, ⟨87, _⟩ => ⟨S131072x64, .f32⟩
  | .hbm, ⟨88, _⟩ => ⟨S131072x128, .f32⟩
  | .hbm, ⟨89, _⟩ => ⟨S1x128, .f32⟩
  | .hbm, ⟨90, _⟩ => ⟨S131072x128, .f32⟩
  | .hbm, ⟨91, _⟩ => ⟨S131072x128, .f32⟩
  | .hbm, ⟨92, _⟩ => ⟨S_, .f32⟩
  | .hbm, ⟨93, _⟩ => ⟨S131072x128, .f32⟩
  | .hbm, ⟨94, _⟩ => ⟨S131072x128, .f32⟩
  | .hbm, ⟨95, _⟩ => ⟨S131072x256, .f32⟩
  | .hbm, ⟨96, _⟩ => ⟨S1x256, .f32⟩
  | .hbm, ⟨97, _⟩ => ⟨S131072x256, .f32⟩
  | .hbm, ⟨98, _⟩ => ⟨S131072x256, .f32⟩
  | .hbm, ⟨99, _⟩ => ⟨S_, .f32⟩
  | .hbm, ⟨100, _⟩ => ⟨S131072x256, .f32⟩
  | .hbm, ⟨101, _⟩ => ⟨S131072x256, .f32⟩
  | .hbm, ⟨102, _⟩ => ⟨S131072x512, .f32⟩
  | .hbm, ⟨103, _⟩ => ⟨S1x512, .f32⟩
  | .hbm, ⟨104, _⟩ => ⟨S131072x512, .f32⟩
  | .hbm, ⟨105, _⟩ => ⟨S131072x512, .f32⟩
  | .hbm, ⟨106, _⟩ => ⟨S_, .f32⟩
  | .hbm, ⟨107, _⟩ => ⟨S131072x512, .f32⟩
  | .hbm, ⟨108, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_call0_cst : Ref sig .tc := ⟨.hbm, 29, rfl⟩
abbrev main_call0_v0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_call1_cst : Ref sig .tc := ⟨.hbm, 36, rfl⟩
abbrev main_call1_v0 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_call2_cst : Ref sig .tc := ⟨.hbm, 43, rfl⟩
abbrev main_call2_v0 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_call3_cst : Ref sig .tc := ⟨.hbm, 50, rfl⟩
abbrev main_call3_v0 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_call4_cst : Ref sig .tc := ⟨.hbm, 57, rfl⟩
abbrev main_call4_v0 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_call5_cst : Ref sig .tc := ⟨.hbm, 64, rfl⟩
abbrev main_call5_v0 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_call6_cst : Ref sig .tc := ⟨.hbm, 71, rfl⟩
abbrev main_call6_v0 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_call7_cst : Ref sig .tc := ⟨.hbm, 78, rfl⟩
abbrev main_call7_v0 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_call8_cst : Ref sig .tc := ⟨.hbm, 85, rfl⟩
abbrev main_call8_v0 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_call9_cst : Ref sig .tc := ⟨.hbm, 92, rfl⟩
abbrev main_call9_v0 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_call10_cst : Ref sig .tc := ⟨.hbm, 99, rfl⟩
abbrev main_call10_v0 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_call11_cst : Ref sig .tc := ⟨.hbm, 106, rfl⟩
abbrev main_call11_v0 : Ref sig .tc := ⟨.hbm, 107, rfl⟩
abbrev main_v59 : Ref sig .tc := ⟨.hbm, 108, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  bcast_S_S131072x32 : S_.BroadcastsInDim S131072x32 (![] : Fin 0 → Fin S131072x32.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  bcast_S_S131072x16 : S_.BroadcastsInDim S131072x16 (![] : Fin 0 → Fin S131072x16.rank)
  bcast_S5_S1x5_1 : S5.BroadcastsInDim S1x5 (![1] : Fin 1 → Fin S1x5.rank)
  bcast_S1x5_S131072x5_0_1 : S1x5.BroadcastsInDim S131072x5 (![0, 1] : Fin 2 → Fin S131072x5.rank)
  bcast_S_S131072x5 : S_.BroadcastsInDim S131072x5 (![] : Fin 0 → Fin S131072x5.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  dot_S131072x512_S512x256_S131072x256_1_0_0_1_n_n_wf : DotDims.WF S131072x512 S512x256 S131072x256 [1] [0] [0] [1] [] []
  dot_S131072x256_S256x128_S131072x128_1_0_0_1_n_n_wf : DotDims.WF S131072x256 S256x128 S131072x128 [1] [0] [0] [1] [] []
  dot_S131072x128_S128x64_S131072x64_1_0_0_1_n_n_wf : DotDims.WF S131072x128 S128x64 S131072x64 [1] [0] [0] [1] [] []
  dot_S131072x64_S64x32_S131072x32_1_0_0_1_n_n_wf : DotDims.WF S131072x64 S64x32 S131072x32 [1] [0] [0] [1] [] []
  dot_S131072x32_S32x16_S131072x16_1_0_0_1_n_n_wf : DotDims.WF S131072x32 S32x16 S131072x16 [1] [0] [0] [1] [] []
  dot_S131072x16_S16x5_S131072x5_1_0_0_1_n_n_wf : DotDims.WF S131072x16 S16x5 S131072x5 [1] [0] [0] [1] [] []
  dot_S131072x5_S5x16_S131072x16_1_0_0_1_n_n_wf : DotDims.WF S131072x5 S5x16 S131072x16 [1] [0] [0] [1] [] []
  dot_S131072x16_S16x32_S131072x32_1_0_0_1_n_n_wf : DotDims.WF S131072x16 S16x32 S131072x32 [1] [0] [0] [1] [] []
  dot_S131072x32_S32x64_S131072x64_1_0_0_1_n_n_wf : DotDims.WF S131072x32 S32x64 S131072x64 [1] [0] [0] [1] [] []
  dot_S131072x64_S64x128_S131072x128_1_0_0_1_n_n_wf : DotDims.WF S131072x64 S64x128 S131072x128 [1] [0] [0] [1] [] []
  dot_S131072x128_S128x256_S131072x256_1_0_0_1_n_n_wf : DotDims.WF S131072x128 S128x256 S131072x256 [1] [0] [0] [1] [] []
  dot_S131072x256_S256x512_S131072x512_1_0_0_1_n_n_wf : DotDims.WF S131072x256 S256x512 S131072x512 [1] [0] [0] [1] [] []

variable [Facts₀]

def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf
def dot_S131072x64_S64x32_S131072x32_1_0_0_1_n_n : DotDims S131072x64 S64x32 S131072x32 where
  lhsContracting := [1]
  rhsContracting := [0]
  lhsNonContracting := [0]
  rhsNonContracting := [1]
  lhsBatch := []
  rhsBatch := []
  wf := dot_S131072x64_S64x32_S131072x32_1_0_0_1_n_n_wf
def dot_S131072x32_S32x16_S131072x16_1_0_0_1_n_n : DotDims S131072x32 S32x16 S131072x16 where
  lhsContracting := [1]
  rhsContracting := [0]
  lhsNonContracting := [0]
  rhsNonContracting := [1]
  lhsBatch := []
  rhsBatch := []
  wf := dot_S131072x32_S32x16_S131072x16_1_0_0_1_n_n_wf
def dot_S131072x16_S16x5_S131072x5_1_0_0_1_n_n : DotDims S131072x16 S16x5 S131072x5 where
  lhsContracting := [1]
  rhsContracting := [0]
  lhsNonContracting := [0]
  rhsNonContracting := [1]
  lhsBatch := []
  rhsBatch := []
  wf := dot_S131072x16_S16x5_S131072x5_1_0_0_1_n_n_wf
def dot_S131072x5_S5x16_S131072x16_1_0_0_1_n_n : DotDims S131072x5 S5x16 S131072x16 where
  lhsContracting := [1]
  rhsContracting := [0]
  lhsNonContracting := [0]
  rhsNonContracting := [1]
  lhsBatch := []
  rhsBatch := []
  wf := dot_S131072x5_S5x16_S131072x16_1_0_0_1_n_n_wf
def dot_S131072x16_S16x32_S131072x32_1_0_0_1_n_n : DotDims S131072x16 S16x32 S131072x32 where
  lhsContracting := [1]
  rhsContracting := [0]
  lhsNonContracting := [0]
  rhsNonContracting := [1]
  lhsBatch := []
  rhsBatch := []
  wf := dot_S131072x16_S16x32_S131072x32_1_0_0_1_n_n_wf
def dot_S131072x32_S32x64_S131072x64_1_0_0_1_n_n : DotDims S131072x32 S32x64 S131072x64 where
  lhsContracting := [1]
  rhsContracting := [0]
  lhsNonContracting := [0]
  rhsNonContracting := [1]
  lhsBatch := []
  rhsBatch := []
  wf := dot_S131072x32_S32x64_S131072x64_1_0_0_1_n_n_wf
def dot_S131072x64_S64x128_S131072x128_1_0_0_1_n_n : DotDims S131072x64 S64x128 S131072x128 where
  lhsContracting := [1]
  rhsContracting := [0]
  lhsNonContracting := [0]
  rhsNonContracting := [1]
  lhsBatch := []
  rhsBatch := []
  wf := dot_S131072x64_S64x128_S131072x128_1_0_0_1_n_n_wf
def dot_S131072x128_S128x256_S131072x256_1_0_0_1_n_n : DotDims S131072x128 S128x256 S131072x256 where
  lhsContracting := [1]
  rhsContracting := [0]
  lhsNonContracting := [0]
  rhsNonContracting := [1]
  lhsBatch := []
  rhsBatch := []
  wf := dot_S131072x128_S128x256_S131072x256_1_0_0_1_n_n_wf
def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf

class Facts : Prop extends Facts₀ where

variable [Facts]
-- ==== Proof.LibMatmulPlain.lean ====
import Idealize.ShloMosaic.PureOps.Ideal
import Idealize.ShloMosaic.PureOps.Ideal.Laws
import Idealize.ShloMosaic.Lib.ValueIdx
import Mathlib.Algebra.BigOperators.Group.Finset.Basic

/-!
# The plain matrix product of the matrix unit, read at an index

For the dimension numbers of an M×K by K×N product (the left operand contracted on its axis 1, the right on its
axis 0, no batch axes), the matrix unit's product into an accumulator is, at (p, n), the accumulator there plus
the sum over q of lhs(p, q) · rhs(q, n) on the extended reals.
-/

noncomputable section

open scoped BigOperators

namespace Cert.MatmulPlain

open Idealize.ShloMosaic Idealize.ShloMosaic.ValueIdx

variable {M K N : Nat} (D : DotDims ⟨2, ![M, K]⟩ ⟨2, ![K, N]⟩ ⟨2, ![M, N]⟩)

/-- The one contracted extent is the left operand's extent on its axis 1. -/
private theorem contr_size_plain (hlc : D.lhsContracting = [1]) (h0 : 0 < D.contr.rank) :
    D.contr.size ⟨0, h0⟩ = K := by
  have hp : 0 < D.lhsContracting.length := by rw [hlc]; exact Nat.one_pos
  have hsz := D.size_contr 0 hp
  have hK : ∀ (l : List (Fin 2)) (h : 0 < l.length), l = [1] → (⟨2, ![M, K]⟩ : Shape).size l[0] = K := by
    intro l h e; subst e; rfl
  exact hsz.trans (hK _ hp hlc)

/-- On the left operand's axis 0, its one non-contracting axis and the result's first, the left index reads the
    result index's first coordinate. -/
theorem lhsIdx_val_zero (hln : D.lhsNonContracting = [0]) (hlb : D.lhsBatch = [])
    (j : (⟨2, ![M, N]⟩ : Shape).Idx) (k : D.contr.Idx) :
    (D.lhsIdx j k (0 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val :=
    fun a b ha hb h => by subst h; rfl
  exact key _ _ _ _ (by simp [hlb, hln])

/-- On the left operand's axis 1, the contracted one, the left index reads the contraction position's coordinate. -/
theorem lhsIdx_val_one (hlc : D.lhsContracting = [1]) (j : (⟨2, ![M, N]⟩ : Shape).Idx) (k : D.contr.Idx) :
    (D.lhsIdx j k (1 : Fin 2)).val = (k ⟨0, by rw [D.rank_contr, hlc]; exact Nat.one_pos⟩).val :=
  D.lhsIdx_val_of_single hlc j k

/-- On the right operand's axis 0, the contracted one, the right index reads the contraction position's coordinate. -/
theorem rhsIdx_val_zero (hrc : D.rhsContracting = [0]) (j : (⟨2, ![M, N]⟩ : Shape).Idx) (k : D.contr.Idx) :
    (D.rhsIdx j k (0 : Fin 2)).val = (k ⟨0, by rw [D.rank_contr, ← D.length_contracting, hrc]; exact Nat.one_pos⟩).val :=
  D.rhsIdx_val_of_single hrc j k

/-- On the right operand's axis 1, its one non-contracting axis and the result's second (after the left operand's
    one), the right index reads the result index's second coordinate. -/
theorem rhsIdx_val_one (hln : D.lhsNonContracting = [0]) (hrn : D.rhsNonContracting = [1]) (hlb : D.lhsBatch = [])
    (hrb : D.rhsBatch = []) (j : (⟨2, ![M, N]⟩ : Shape).Idx) (k : D.contr.Idx) :
    (D.rhsIdx j k (1 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val :=
    fun a b ha hb h => by subst h; rfl
  exact key _ _ _ _ (by simp [hlb, hln, hrn])

/-- THE PRODUCT READ AT (p, n): the accumulator's entry plus the sum over the contracted position q of
    lhs(p, q) · rhs(q, n). -/
theorem matmul_plain_apply (hlc : D.lhsContracting = [1]) (hrc : D.rhsContracting = [0])
    (hln : D.lhsNonContracting = [0]) (hrn : D.rhsNonContracting = [1]) (hlb : D.lhsBatch = []) (hrb : D.rhsBatch = [])
    {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul D prec lhs rhs acc (ix2 p n) = acc (ix2 p n) + ∑ q : Fin K, lhs (ix2 p q) * rhs (ix2 q n) := by
  have hr : D.contr.rank = 1 := by rw [DotDims.rank_contr, hlc]; rfl
  have hs : D.contr.size ⟨0, by omega⟩ = K := contr_size_plain D hlc (by omega)
  rw [Ideal.matmul_apply]
  congr 1
  -- the contraction index set is its one coordinate's range: re-index the sum through that bijection
  rw [← Equiv.sum_comp (contrEquiv1 D K hr hs).symm]
  refine Finset.sum_congr rfl fun q _ => ?_
  have hl : D.lhsIdx (ix2 p n) ((contrEquiv1 D K hr hs).symm q) = ix2 p q := by
    funext a
    match a with
    | ⟨0, _⟩ => exact Fin.ext (lhsIdx_val_zero D hln hlb (ix2 p n) _)
    | ⟨1, _⟩ => exact Fin.ext ((lhsIdx_val_one D hlc (ix2 p n) _).trans (contrEquiv1_symm_val D K hr hs q))
  have hrr : D.rhsIdx (ix2 p n) ((contrEquiv1 D K hr hs).symm q) = ix2 q n := by
    funext a
    match a with
    | ⟨0, _⟩ => exact Fin.ext ((rhsIdx_val_zero D hrc (ix2 p n) _).trans (contrEquiv1_symm_val D K hr hs q))
    | ⟨1, _⟩ => exact Fin.ext (rhsIdx_val_one D hln hrn hlb hrb (ix2 p n) _)
  rw [hl, hrr]

end Cert.MatmulPlain

end
-- ==== Proof.LibDotPlain.lean ====
import Idealize.ShloMosaic.PureOps.Ideal
import Idealize.ShloMosaic.PureOps.Ideal.Laws
import Idealize.ShloMosaic.Lib.ValueIdx
import Mathlib.Algebra.BigOperators.Group.Finset.Basic
import proofs.«413045_j84851373900034_3_alg».proof.Proof.LibMatmulPlain

/-!
# The host's plain matrix product, read at an index

For the dimension numbers of an M×K by K×N product (the left operand contracted on its axis 1, the right on its
axis 0, no batch axes), the host's dot_general over the extended reals is, at (p, n), the sum over q of
lhs(p, q) · rhs(q, n). Over the extended reals the host's product is the same contraction as the matrix unit's
onto an accumulator that is zero everywhere, so the statement is the matrix unit's with the accumulator's
entry 0 dropped from the front of the sum.
-/

noncomputable section

open scoped BigOperators

namespace Cert.DotPlain

open Idealize.ShloMosaic Idealize.ShloMosaic.ValueIdx

variable {M K N : Nat} (D : DotDims ⟨2, ![M, K]⟩ ⟨2, ![K, N]⟩ ⟨2, ![M, N]⟩)

/-- THE HOST'S PRODUCT READ AT (p, n): the sum over the contracted position q of lhs(p, q) · rhs(q, n), whatever
    the precision mode and the schedule key. -/
theorem dot_plain_apply (hlc : D.lhsContracting = [1]) (hrc : D.rhsContracting = [0])
    (hln : D.lhsNonContracting = [0]) (hrn : D.rhsNonContracting = [1]) (hlb : D.lhsBatch = []) (hrb : D.rhsBatch = [])
    {φ₁ φ₂ : FTy} (prec : Option ContractPrecision) (sched : HostSchedule)
    (lhs : FVec Ideal ⟨2, ![M, K]⟩ φ₁) (rhs : FVec Ideal ⟨2, ![K, N]⟩ φ₂) (p : Fin M) (n : Fin N) :
    FloatOps.dotGeneral D prec sched lhs rhs (ix2 p n) = ∑ q : Fin K, lhs (ix2 p q) * rhs (ix2 q n) := by
  -- the host's product is the contraction onto the zero accumulator
  have hz : FloatOps.dotGeneral D prec sched lhs rhs (ix2 p n)
      = FloatOps.matmul D prec lhs rhs (fun _ => (0 : Ideal .f32)) (ix2 p n) := rfl
  rw [hz, Cert.MatmulPlain.matmul_plain_apply D hlc hrc hln hrn hlb hrb prec lhs rhs (fun _ => (0 : Ideal .f32)) p n]
  exact zero_add _

end Cert.DotPlain

end
-- ==== Proof.LibDenseRow.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Mathlib.Algebra.BigOperators.Group.Finset.Basic
import proofs.«413045_j84851373900034_3_alg».proof.Proof.LibMatmulPlain
import proofs.«413045_j84851373900034_3_alg».proof.Proof.LibDotPlain

/-!
# A dense layer with ReLU, one row at a time

A dense layer sends a row `h` of `K` entries to the row `n ↦ max (∑ q, h q · W q n + b n) 0` of `N` entries, over the
extended reals. A matrix of `M` rows goes through the layer row by row, so every vector operation the layer is made
of — the matrix product into a zero accumulator or the host's product, the bias laid along every row, the maximum
with zero — is read here on ONE ROW of its operand: the row of the result is a function of the same row of the
operand and of the whole weight matrix and bias. The statements are general in the three extents.
-/

noncomputable section

open scoped BigOperators

namespace Cert.Mlp

open Idealize.ShloMosaic Idealize.ShloMosaic.ValueIdx

/-! ## Rows -/

/-- The row times the matrix: entry `n` is `∑ q, h q · W q n`. -/
def lin {K N : Nat} (W : Fin K → Fin N → EReal) (h : Fin K → EReal) : Fin N → EReal := fun n => ∑ q : Fin K, h q * W q n

/-- Two rows added entry by entry. -/
def addRow {N : Nat} (u b : Fin N → EReal) : Fin N → EReal := fun n => u n + b n

/-- The maximum with zero, entry by entry. -/
def relu {N : Nat} (u : Fin N → EReal) : Fin N → EReal := fun n => max (u n) 0

/-- One dense layer with ReLU on a row. -/
def dense {K N : Nat} (W : Fin K → Fin N → EReal) (b : Fin N → EReal) (h : Fin K → EReal) : Fin N → EReal :=
  relu (addRow (lin W h) b)

/-- A rank-2 array as a function of its two coordinates. -/
def mat {K N : Nat} (W : (⟨2, ![K, N]⟩ : Shape).Idx → EReal) : Fin K → Fin N → EReal := fun q n => W (ix2 q n)

/-- Row `p` of a rank-2 array. -/
def rowAt {M K : Nat} (X : (⟨2, ![M, K]⟩ : Shape).Idx → EReal) (p : Fin M) : Fin K → EReal := fun q => X (ix2 p q)

/-- The one row of a `[1, N]` array. -/
def rowOf {N : Nat} (b : (⟨2, ![1, N]⟩ : Shape).Idx → EReal) : Fin N → EReal := fun n => b (ix2 (0 : Fin 1) n)

/-- A rank-1 array as a function of its coordinate. -/
def vecOf {N : Nat} (b : (⟨1, ![N]⟩ : Shape).Idx → EReal) : Fin N → EReal := fun n => b (ix1 n)

/-! ## Format changes and same-shape casts are the identity on the extended reals -/

/-- Narrowing the float format changes nothing at the extended reals. -/
theorem truncf_id {s : Shape} {φ ψ : FTy} (x : FVec Ideal s φ) (h : ψ.bits < φ.bits) : truncf ψ x h = x := rfl

/-! ## The matrix unit's side, on a row -/

section Mxu
variable {M K N : Nat} (D : DotDims ⟨2, ![M, K]⟩ ⟨2, ![K, N]⟩ ⟨2, ![M, N]⟩)

/-- Row `p` of the product into a zero accumulator is row `p` of the left operand times the right operand. -/
theorem mxu_rowAt (hlc : D.lhsContracting = [1]) (hrc : D.rhsContracting = [0])
    (hln : D.lhsNonContracting = [0]) (hrn : D.rhsNonContracting = [1]) (hlb : D.lhsBatch = []) (hrb : D.rhsBatch = [])
    {φ₁ φ₂ : FTy} (prec : Option ContractPrecision)
    (lhs : FVec Ideal ⟨2, ![M, K]⟩ φ₁) (rhs : FVec Ideal ⟨2, ![K, N]⟩ φ₂) (p : Fin M) :
    rowAt (matmul D prec lhs rhs (constant (F := Ideal) ⟨2, ![M, N]⟩ .f32 0x00000000#32)) p = lin (mat rhs) (rowAt lhs p) := by
  funext n
  show FloatOps.matmul D prec lhs rhs (constant (F := Ideal) ⟨2, ![M, N]⟩ .f32 0x00000000#32) (ix2 p n) = _
  rw [Cert.MatmulPlain.matmul_plain_apply D hlc hrc hln hrn hlb hrb prec lhs rhs _ p n]
  show Ideal.ofBits .f32 0x00000000#32 + _ = _
  rw [Ideal.ofBits_zero_f32, zero_add]
  rfl

/-- Row `p` of the host's product is row `p` of the left operand times the right operand. -/
theorem dot_rowAt (hlc : D.lhsContracting = [1]) (hrc : D.rhsContracting = [0])
    (hln : D.lhsNonContracting = [0]) (hrn : D.rhsNonContracting = [1]) (hlb : D.lhsBatch = []) (hrb : D.rhsBatch = [])
    {φ₁ φ₂ : FTy} (prec : Option ContractPrecision)
    (lhs : FVec Ideal ⟨2, ![M, K]⟩ φ₁) (rhs : FVec Ideal ⟨2, ![K, N]⟩ φ₂) (p : Fin M) :
    rowAt (Host.dotGeneral D prec lhs rhs) p = lin (mat rhs) (rowAt lhs p) := by
  funext n
  show FloatOps.dotGeneral D prec .single lhs rhs (ix2 p n) = _
  rw [Cert.DotPlain.dot_plain_apply D hlc hrc hln hrn hlb hrb prec .single lhs rhs p n]
  rfl

end Mxu

/-! ## The bias and the maximum with zero, on a row -/

section Pointwise
variable {M N : Nat}

/-- Row `p` of a matrix plus a one-row array laid along every row. -/
theorem bias_rowAt (v : FVec Ideal ⟨2, ![M, N]⟩ .f32) (b : FVec Ideal ⟨2, ![1, N]⟩ .f32)
    (hb : (⟨2, ![1, N]⟩ : Shape).Broadcasts ⟨2, ![M, N]⟩) (p : Fin M) :
    rowAt (addf v (broadcastTo ⟨2, ![M, N]⟩ b hb)) p = addRow (rowAt v p) (rowOf b) := by
  funext n
  show v (ix2 p n) + broadcastTo ⟨2, ![M, N]⟩ b hb (ix2 p n) = _
  rw [broadcastTo_1b_ab_apply]
  rfl

/-- Row `p` of the maximum of a matrix with the zero scalar spread over its shape (the kernel's spelling). -/
theorem relu_rowAt (v : FVec Ideal ⟨2, ![M, N]⟩ .f32) (p : Fin M) :
    rowAt (maximumf v (broadcast ⟨2, ![M, N]⟩ (Scalar.ofBits (F := Ideal) .f32 0x00000000#32))) p = relu (rowAt v p) := by
  funext n
  show max (v (ix2 p n)) (Ideal.ofBits .f32 0x00000000#32) = _
  rw [Ideal.ofBits_zero_f32]
  rfl

/-- Row `p` of a matrix plus a rank-1 array laid along every row through a one-row array (the host's spelling). -/
theorem hostBias_rowAt (v : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) :
    rowAt (addf v (broadcastInDim ⟨2, ![M, N]⟩ ![0, 1] h2 (broadcastInDim ⟨2, ![1, N]⟩ ![1] h1 b))) p
      = addRow (rowAt v p) (vecOf b) := by
  funext n
  show v (ix2 p n) + broadcastInDim ⟨2, ![M, N]⟩ ![0, 1] h2 (broadcastInDim ⟨2, ![1, N]⟩ ![1] h1 b) (ix2 p n) = _
  rw [Idealize.ShloMosaic.broadcastInDim_oneRow_apply]
  have e : broadcastInDim ⟨2, ![1, N]⟩ ![1] h1 b (ix2 (0 : Fin 1) n) = b (ix1 n) := by
    refine broadcastInDim_apply ![1] h1 b (ix2 (0 : Fin 1) n) (ix1 n) fun a => ?_
    match a with
    | ⟨0, _⟩ =>
      show n.val = if N = 1 then 0 else n.val
      split
      · have := n.isLt; omega
      · rfl
  rw [e]
  rfl

/-- Row `p` of the maximum of a matrix with the zero scalar array spread over its shape (the host's spelling). -/
theorem hostRelu_rowAt (v : FVec Ideal ⟨2, ![M, N]⟩ .f32)
    (h0 : (⟨0, ![]⟩ : Shape).BroadcastsInDim ⟨2, ![M, N]⟩ ![]) (p : Fin M) :
    rowAt (maximumf v (broadcastInDim ⟨2, ![M, N]⟩ ![] h0 (constant (F := Ideal) ⟨0, ![]⟩ .f32 0x00000000#32))) p
      = relu (rowAt v p) := by
  funext n
  show max (v (ix2 p n)) (broadcastInDim ⟨2, ![M, N]⟩ ![] h0 (constant (F := Ideal) ⟨0, ![]⟩ .f32 0x00000000#32) (ix2 p n)) = _
  rw [broadcastInDim_scalar_apply]
  show max (v (ix2 p n)) (Ideal.ofBits .f32 0x00000000#32) = _
  rw [Ideal.ofBits_zero_f32]
  rfl

/-- A rank-1 array recast as one row has that array as its row. -/
theorem rowOf_shapeCast (b : (⟨1, ![N]⟩ : Shape).Idx → EReal) (h : (⟨1, ![N]⟩ : Shape).ShapeCasts ⟨2, ![1, N]⟩) :
    rowOf (shapeCast ⟨2, ![1, N]⟩ b h) = vecOf b := by
  funext n
  show shapeCast ⟨2, ![1, N]⟩ b h (ix2 (0 : Fin 1) n) = b (ix1 n)
  exact shapeCast_a_1a_apply b h 0 n

end Pointwise

end Cert.Mlp

end
-- ==== Proof.Net.lean ====
import proofs.«413045_j84851373900034_3_alg».proof.Proof.LibDenseRow

/-!
# The twelve-layer network on a row, and on every row of a matrix

The network narrows a row of 512 entries through dense layers with ReLU to 5 entries and widens it back to 512:
twelve layers, each `h ↦ max (h · W + b) 0`. Applied to a matrix it works on each row by itself, whatever the
number of rows: the result's entry at (r, c) is entry `c` of the network applied to row `r`.
-/

noncomputable section

namespace Cert.Mlp

open Idealize.ShloMosaic Idealize.ShloMosaic.ValueIdx

/-- The twelve weight matrices and biases, as functions of their coordinates. -/
structure Params where
  W0 : Fin 512 → Fin 256 → EReal
  b0 : Fin 256 → EReal
  W1 : Fin 256 → Fin 128 → EReal
  b1 : Fin 128 → EReal
  W2 : Fin 128 → Fin 64 → EReal
  b2 : Fin 64 → EReal
  W3 : Fin 64 → Fin 32 → EReal
  b3 : Fin 32 → EReal
  W4 : Fin 32 → Fin 16 → EReal
  b4 : Fin 16 → EReal
  W5 : Fin 16 → Fin 5 → EReal
  b5 : Fin 5 → EReal
  W6 : Fin 5 → Fin 16 → EReal
  b6 : Fin 16 → EReal
  W7 : Fin 16 → Fin 32 → EReal
  b7 : Fin 32 → EReal
  W8 : Fin 32 → Fin 64 → EReal
  b8 : Fin 64 → EReal
  W9 : Fin 64 → Fin 128 → EReal
  b9 : Fin 128 → EReal
  W10 : Fin 128 → Fin 256 → EReal
  b10 : Fin 256 → EReal
  W11 : Fin 256 → Fin 512 → EReal
  b11 : Fin 512 → EReal

/-- The parameters read off the twelve weight arrays (rank 2) and the twelve bias arrays (rank 1). -/
def arrParams (a1 : (⟨2, ![512, 256]⟩ : Shape).Idx → EReal) (a2 : (⟨1, ![256]⟩ : Shape).Idx → EReal) (a3 : (⟨2, ![256, 128]⟩ : Shape).Idx → EReal) (a4 : (⟨1, ![128]⟩ : Shape).Idx → EReal) (a5 : (⟨2, ![128, 64]⟩ : Shape).Idx → EReal) (a6 : (⟨1, ![64]⟩ : Shape).Idx → EReal) (a7 : (⟨2, ![64, 32]⟩ : Shape).Idx → EReal) (a8 : (⟨1, ![32]⟩ : Shape).Idx → EReal) (a9 : (⟨2, ![32, 16]⟩ : Shape).Idx → EReal) (a10 : (⟨1, ![16]⟩ : Shape).Idx → EReal) (a11 : (⟨2, ![16, 5]⟩ : Shape).Idx → EReal) (a12 : (⟨1, ![5]⟩ : Shape).Idx → EReal) (a13 : (⟨2, ![5, 16]⟩ : Shape).Idx → EReal) (a14 : (⟨1, ![16]⟩ : Shape).Idx → EReal) (a15 : (⟨2, ![16, 32]⟩ : Shape).Idx → EReal) (a16 : (⟨1, ![32]⟩ : Shape).Idx → EReal) (a17 : (⟨2, ![32, 64]⟩ : Shape).Idx → EReal) (a18 : (⟨1, ![64]⟩ : Shape).Idx → EReal) (a19 : (⟨2, ![64, 128]⟩ : Shape).Idx → EReal) (a20 : (⟨1, ![128]⟩ : Shape).Idx → EReal) (a21 : (⟨2, ![128, 256]⟩ : Shape).Idx → EReal) (a22 : (⟨1, ![256]⟩ : Shape).Idx → EReal) (a23 : (⟨2, ![256, 512]⟩ : Shape).Idx → EReal) (a24 : (⟨1, ![512]⟩ : Shape).Idx → EReal) : Params :=
  ⟨mat a1, vecOf a2, mat a3, vecOf a4, mat a5, vecOf a6, mat a7, vecOf a8, mat a9, vecOf a10, mat a11, vecOf a12, mat a13, vecOf a14, mat a15, vecOf a16, mat a17, vecOf a18, mat a19, vecOf a20, mat a21, vecOf a22, mat a23, vecOf a24⟩

/-- The network on one row: the twelve layers one after the other. -/
def net (P : Params) (h : Fin 512 → EReal) : Fin 512 → EReal :=
  dense P.W11 P.b11 (dense P.W10 P.b10 (dense P.W9 P.b9 (dense P.W8 P.b8 (dense P.W7 P.b7 (dense P.W6 P.b6 (dense P.W5 P.b5 (dense P.W4 P.b4 (dense P.W3 P.b3 (dense P.W2 P.b2 (dense P.W1 P.b1 (dense P.W0 P.b0 (h))))))))))))

/-- The network on every row of an `M × 512` matrix. -/
def rowsNet {M : Nat} (P : Params) (X : (⟨2, ![M, 512]⟩ : Shape).Idx → EReal) : (⟨2, ![M, 512]⟩ : Shape).Idx → EReal :=
  fun i => net P (rowAt X (i 0)) (i 1)

/-- At the index of coordinates (r, c) it is entry `c` of the network on row `r`. -/
theorem rowsNet_ix2 {M : Nat} (P : Params) (X : (⟨2, ![M, 512]⟩ : Shape).Idx → EReal) (r : Fin M) (c : Fin 512) :
    rowsNet P X (ix2 r c) = net P (rowAt X r) c := rfl

/-- The network's result depends only on the input array and the twenty-four parameter arrays. -/
theorem rowsNet_congr {M : Nat} {a0 a0' : (⟨2, ![M, 512]⟩ : Shape).Idx → EReal} {a1 a1' : (⟨2, ![512, 256]⟩ : Shape).Idx → EReal} {a2 a2' : (⟨1, ![256]⟩ : Shape).Idx → EReal} {a3 a3' : (⟨2, ![256, 128]⟩ : Shape).Idx → EReal} {a4 a4' : (⟨1, ![128]⟩ : Shape).Idx → EReal} {a5 a5' : (⟨2, ![128, 64]⟩ : Shape).Idx → EReal} {a6 a6' : (⟨1, ![64]⟩ : Shape).Idx → EReal} {a7 a7' : (⟨2, ![64, 32]⟩ : Shape).Idx → EReal} {a8 a8' : (⟨1, ![32]⟩ : Shape).Idx → EReal} {a9 a9' : (⟨2, ![32, 16]⟩ : Shape).Idx → EReal} {a10 a10' : (⟨1, ![16]⟩ : Shape).Idx → EReal} {a11 a11' : (⟨2, ![16, 5]⟩ : Shape).Idx → EReal} {a12 a12' : (⟨1, ![5]⟩ : Shape).Idx → EReal} {a13 a13' : (⟨2, ![5, 16]⟩ : Shape).Idx → EReal} {a14 a14' : (⟨1, ![16]⟩ : Shape).Idx → EReal} {a15 a15' : (⟨2, ![16, 32]⟩ : Shape).Idx → EReal} {a16 a16' : (⟨1, ![32]⟩ : Shape).Idx → EReal} {a17 a17' : (⟨2, ![32, 64]⟩ : Shape).Idx → EReal} {a18 a18' : (⟨1, ![64]⟩ : Shape).Idx → EReal} {a19 a19' : (⟨2, ![64, 128]⟩ : Shape).Idx → EReal} {a20 a20' : (⟨1, ![128]⟩ : Shape).Idx → EReal} {a21 a21' : (⟨2, ![128, 256]⟩ : Shape).Idx → EReal} {a22 a22' : (⟨1, ![256]⟩ : Shape).Idx → EReal} {a23 a23' : (⟨2, ![256, 512]⟩ : Shape).Idx → EReal} {a24 a24' : (⟨1, ![512]⟩ : Shape).Idx → EReal}
    (e0 : a0' = a0) (e1 : a1' = a1) (e2 : a2' = a2) (e3 : a3' = a3) (e4 : a4' = a4) (e5 : a5' = a5) (e6 : a6' = a6) (e7 : a7' = a7) (e8 : a8' = a8) (e9 : a9' = a9) (e10 : a10' = a10) (e11 : a11' = a11) (e12 : a12' = a12) (e13 : a13' = a13) (e14 : a14' = a14) (e15 : a15' = a15) (e16 : a16' = a16) (e17 : a17' = a17) (e18 : a18' = a18) (e19 : a19' = a19) (e20 : a20' = a20) (e21 : a21' = a21) (e22 : a22' = a22) (e23 : a23' = a23) (e24 : a24' = a24) :
    rowsNet (arrParams a1' a2' a3' a4' a5' a6' a7' a8' a9' a10' a11' a12' a13' a14' a15' a16' a17' a18' a19' a20' a21' a22' a23' a24') a0'
      = rowsNet (arrParams a1 a2 a3 a4 a5 a6 a7 a8 a9 a10 a11 a12 a13 a14 a15 a16 a17 a18 a19 a20 a21 a22 a23 a24) a0 := by
  subst_vars
  rfl

end Cert.Mlp

end
-- ==== Proof.KernelRows.lean ====
import proofs.«413045_j84851373900034_3_alg».proof.Proof.Gen.KernelIdeal.Skeleton
import proofs.«413045_j84851373900034_3_alg».proof.Proof.Net

/-!
# The kernel's arithmetic, one row at a time

The kernel's body runs the twelve layers twice, on the first and on the last 1024 rows of its 2048-row tile, each time
as a chain of pure terms of the loaded tile rows, weight matrices and one-row biases. At the extended reals the
narrowing to bf16 between layers is the identity, a product on the matrix unit into a zero accumulator is the plain
sum of products, and so every term of the chain, read on row `p`, is the dense layers applied to row `p` of what the
chain started from. Put together, each half's stored value on row `p` is the whole network on row `p` of that half of
the tile.
-/

noncomputable section

namespace Cert.KernelIdeal.Rows

open Idealize.ShloMosaic Idealize.ShloMosaic.ValueIdx Cert.KernelIdeal Cert.KernelIdeal.Gen Cert.Mlp

/-! ## The twelve products -/

/-- Layer 0's product on the matrix unit, one row. -/
theorem mxu_0 {φ₁ φ₂ : FTy} (lhs : FVec Ideal S1024x512 φ₁) (rhs : FVec Ideal S512x256 φ₂) (p : Fin 1024) :
    rowAt (matmul dot_S1024x512_S512x256_S1024x256_1_0_0_1_n_n none lhs rhs (constant (F := Ideal) S1024x256 .f32 0x00000000#32)) p = lin (mat rhs) (rowAt lhs p) :=
  mxu_rowAt dot_S1024x512_S512x256_S1024x256_1_0_0_1_n_n rfl rfl rfl rfl rfl rfl none lhs rhs p

/-- Layer 1's product on the matrix unit, one row. -/
theorem mxu_1 {φ₁ φ₂ : FTy} (lhs : FVec Ideal S1024x256 φ₁) (rhs : FVec Ideal S256x128 φ₂) (p : Fin 1024) :
    rowAt (matmul dot_S1024x256_S256x128_S1024x128_1_0_0_1_n_n none lhs rhs (constant (F := Ideal) S1024x128 .f32 0x00000000#32)) p = lin (mat rhs) (rowAt lhs p) :=
  mxu_rowAt dot_S1024x256_S256x128_S1024x128_1_0_0_1_n_n rfl rfl rfl rfl rfl rfl none lhs rhs p

/-- Layer 2's product on the matrix unit, one row. -/
theorem mxu_2 {φ₁ φ₂ : FTy} (lhs : FVec Ideal S1024x128 φ₁) (rhs : FVec Ideal S128x64 φ₂) (p : Fin 1024) :
    rowAt (matmul dot_S1024x128_S128x64_S1024x64_1_0_0_1_n_n none lhs rhs (constant (F := Ideal) S1024x64 .f32 0x00000000#32)) p = lin (mat rhs) (rowAt lhs p) :=
  mxu_rowAt dot_S1024x128_S128x64_S1024x64_1_0_0_1_n_n rfl rfl rfl rfl rfl rfl none lhs rhs p

/-- Layer 3's product on the matrix unit, one row. -/
theorem mxu_3 {φ₁ φ₂ : FTy} (lhs : FVec Ideal S1024x64 φ₁) (rhs : FVec Ideal S64x32 φ₂) (p : Fin 1024) :
    rowAt (matmul dot_S1024x64_S64x32_S1024x32_1_0_0_1_n_n none lhs rhs (constant (F := Ideal) S1024x32 .f32 0x00000000#32)) p = lin (mat rhs) (rowAt lhs p) :=
  mxu_rowAt dot_S1024x64_S64x32_S1024x32_1_0_0_1_n_n rfl rfl rfl rfl rfl rfl none lhs rhs p

/-- Layer 4's product on the matrix unit, one row. -/
theorem mxu_4 {φ₁ φ₂ : FTy} (lhs : FVec Ideal S1024x32 φ₁) (rhs : FVec Ideal S32x16 φ₂) (p : Fin 1024) :
    rowAt (matmul dot_S1024x32_S32x16_S1024x16_1_0_0_1_n_n none lhs rhs (constant (F := Ideal) S1024x16 .f32 0x00000000#32)) p = lin (mat rhs) (rowAt lhs p) :=
  mxu_rowAt dot_S1024x32_S32x16_S1024x16_1_0_0_1_n_n rfl rfl rfl rfl rfl rfl none lhs rhs p

/-- Layer 5's product on the matrix unit, one row. -/
theorem mxu_5 {φ₁ φ₂ : FTy} (lhs : FVec Ideal S1024x16 φ₁) (rhs : FVec Ideal S16x5 φ₂) (p : Fin 1024) :
    rowAt (matmul dot_S1024x16_S16x5_S1024x5_1_0_0_1_n_n none lhs rhs (constant (F := Ideal) S1024x5 .f32 0x00000000#32)) p = lin (mat rhs) (rowAt lhs p) :=
  mxu_rowAt dot_S1024x16_S16x5_S1024x5_1_0_0_1_n_n rfl rfl rfl rfl rfl rfl none lhs rhs p

/-- Layer 6's product on the matrix unit, one row. -/
theorem mxu_6 {φ₁ φ₂ : FTy} (lhs : FVec Ideal S1024x5 φ₁) (rhs : FVec Ideal S5x16 φ₂) (p : Fin 1024) :
    rowAt (matmul dot_S1024x5_S5x16_S1024x16_1_0_0_1_n_n none lhs rhs (constant (F := Ideal) S1024x16 .f32 0x00000000#32)) p = lin (mat rhs) (rowAt lhs p) :=
  mxu_rowAt dot_S1024x5_S5x16_S1024x16_1_0_0_1_n_n rfl rfl rfl rfl rfl rfl none lhs rhs p

/-- Layer 7's product on the matrix unit, one row. -/
theorem mxu_7 {φ₁ φ₂ : FTy} (lhs : FVec Ideal S1024x16 φ₁) (rhs : FVec Ideal S16x32 φ₂) (p : Fin 1024) :
    rowAt (matmul dot_S1024x16_S16x32_S1024x32_1_0_0_1_n_n none lhs rhs (constant (F := Ideal) S1024x32 .f32 0x00000000#32)) p = lin (mat rhs) (rowAt lhs p) :=
  mxu_rowAt dot_S1024x16_S16x32_S1024x32_1_0_0_1_n_n rfl rfl rfl rfl rfl rfl none lhs rhs p

/-- Layer 8's product on the matrix unit, one row. -/
theorem mxu_8 {φ₁ φ₂ : FTy} (lhs : FVec Ideal S1024x32 φ₁) (rhs : FVec Ideal S32x64 φ₂) (p : Fin 1024) :
    rowAt (matmul dot_S1024x32_S32x64_S1024x64_1_0_0_1_n_n none lhs rhs (constant (F := Ideal) S1024x64 .f32 0x00000000#32)) p = lin (mat rhs) (rowAt lhs p) :=
  mxu_rowAt dot_S1024x32_S32x64_S1024x64_1_0_0_1_n_n rfl rfl rfl rfl rfl rfl none lhs rhs p

/-- Layer 9's product on the matrix unit, one row. -/
theorem mxu_9 {φ₁ φ₂ : FTy} (lhs : FVec Ideal S1024x64 φ₁) (rhs : FVec Ideal S64x128 φ₂) (p : Fin 1024) :
    rowAt (matmul dot_S1024x64_S64x128_S1024x128_1_0_0_1_n_n none lhs rhs (constant (F := Ideal) S1024x128 .f32 0x00000000#32)) p = lin (mat rhs) (rowAt lhs p) :=
  mxu_rowAt dot_S1024x64_S64x128_S1024x128_1_0_0_1_n_n rfl rfl rfl rfl rfl rfl none lhs rhs p

/-- Layer 10's product on the matrix unit, one row. -/
theorem mxu_10 {φ₁ φ₂ : FTy} (lhs : FVec Ideal S1024x128 φ₁) (rhs : FVec Ideal S128x256 φ₂) (p : Fin 1024) :
    rowAt (matmul dot_S1024x128_S128x256_S1024x256_1_0_0_1_n_n none lhs rhs (constant (F := Ideal) S1024x256 .f32 0x00000000#32)) p = lin (mat rhs) (rowAt lhs p) :=
  mxu_rowAt dot_S1024x128_S128x256_S1024x256_1_0_0_1_n_n rfl rfl rfl rfl rfl rfl none lhs rhs p

/-- Layer 11's product on the matrix unit, one row. -/
theorem mxu_11 {φ₁ φ₂ : FTy} (lhs : FVec Ideal S1024x256 φ₁) (rhs : FVec Ideal S256x512 φ₂) (p : Fin 1024) :
    rowAt (matmul dot_S1024x256_S256x512_S1024x512_1_0_0_1_n_n none lhs rhs (constant (F := Ideal) S1024x512 .f32 0x00000000#32)) p = lin (mat rhs) (rowAt lhs p) :=
  mxu_rowAt dot_S1024x256_S256x512_S1024x512_1_0_0_1_n_n rfl rfl rfl rfl rfl rfl none lhs rhs p

/-! ## The chain's terms -/

/-- Layers 0 to 2 and layer 3's product, first half of the tile, on row `p`. -/
theorem pay2_row (v0 : Vec Ideal S1024x512 .f32) (v2 : Vec Ideal S512x256 .bf16) (v5 : Vec Ideal S1x256 .f32) (v12 : Vec Ideal S256x128 .bf16) (v15 : Vec Ideal S1x128 .f32) (v22 : Vec Ideal S128x64 .bf16) (v25 : Vec Ideal S1x64 .f32) (v32 : Vec Ideal S64x32 .bf16) (p : Fin 1024) :
    rowAt (k0_pay2 (F := Ideal) v0 v2 v5 v12 v15 v22 v25 v32) p
      = lin (mat v32) (dense (mat v22) (rowOf v25) (dense (mat v12) (rowOf v15) (dense (mat v2) (rowOf v5) (rowAt v0 p)))) := by
  unfold k0_pay2
  simp only [truncf_id, shapeCast_self, relu_rowAt, bias_rowAt, mxu_0, mxu_1, mxu_2, mxu_3, mxu_4, mxu_5, mxu_6, mxu_7, mxu_8, mxu_9, mxu_10, mxu_11]
  rfl

/-- Layer 3's bias and maximum, then layers 4 to 6, first half, on row `p`. -/
theorem pay3_row (v34 : FVec Ideal S1024x32 .f32) (v35 : Vec Ideal S1x32 .f32) (v42 : Vec Ideal S32x16 .bf16) (v45 : Vec Ideal S1x16 .f32) (v52 : Vec Ideal S16x5 .bf16) (v55 : Vec Ideal S1x5 .f32) (v62 : Vec Ideal S5x16 .bf16) (v65 : Vec Ideal S1x16 .f32) (p : Fin 1024) :
    rowAt (k0_pay3 (F := Ideal) v34 v35 v42 v45 v52 v55 v62 v65) p
      = dense (mat v62) (rowOf v65) (dense (mat v52) (rowOf v55) (dense (mat v42) (rowOf v45) (relu (addRow (rowAt v34 p) (rowOf v35))))) := by
  unfold k0_pay3
  simp only [truncf_id, shapeCast_self, relu_rowAt, bias_rowAt, mxu_0, mxu_1, mxu_2, mxu_3, mxu_4, mxu_5, mxu_6, mxu_7, mxu_8, mxu_9, mxu_10, mxu_11]
  rfl

/-- Layers 7 to 10, first half, on row `p`. -/
theorem pay4_row (v71 : FVec Ideal S1024x16 .bf16) (v72 : Vec Ideal S16x32 .bf16) (v75 : Vec Ideal S1x32 .f32) (v82 : Vec Ideal S32x64 .bf16) (v85 : Vec Ideal S1x64 .f32) (v92 : Vec Ideal S64x128 .bf16) (v95 : Vec Ideal S1x128 .f32) (v102 : Vec Ideal S128x256 .bf16) (v105 : Vec Ideal S1x256 .f32) (p : Fin 1024) :
    rowAt (k0_pay4 (F := Ideal) v71 v72 v75 v82 v85 v92 v95 v102 v105) p
      = dense (mat v102) (rowOf v105) (dense (mat v92) (rowOf v95) (dense (mat v82) (rowOf v85) (dense (mat v72) (rowOf v75) (rowAt v71 p)))) := by
  unfold k0_pay4
  simp only [truncf_id, shapeCast_self, relu_rowAt, bias_rowAt, mxu_0, mxu_1, mxu_2, mxu_3, mxu_4, mxu_5, mxu_6, mxu_7, mxu_8, mxu_9, mxu_10, mxu_11]
  rfl

/-- Layer 11, first half: what is stored into the tile's first 1024 rows, on row `p`. -/
theorem pay5_row (v110 : FVec Ideal S1024x256 .f32) (v112 : Vec Ideal S256x512 .bf16) (v115 : Vec Ideal S1x512 .f32) (p : Fin 1024) :
    rowAt (k0_pay5 (F := Ideal) v110 v112 v115) p
      = dense (mat v112) (rowOf v115) (rowAt v110 p) := by
  unfold k0_pay5
  simp only [truncf_id, shapeCast_self, relu_rowAt, bias_rowAt, mxu_0, mxu_1, mxu_2, mxu_3, mxu_4, mxu_5, mxu_6, mxu_7, mxu_8, mxu_9, mxu_10, mxu_11]
  rfl

/-- Layers 0 and 1, second half of the tile, on row `p`. -/
theorem pay6_row (v122 : Vec Ideal S1024x512 .f32) (v124 : Vec Ideal S512x256 .bf16) (v127 : Vec Ideal S1x256 .f32) (v134 : Vec Ideal S256x128 .bf16) (v137 : Vec Ideal S1x128 .f32) (p : Fin 1024) :
    rowAt (k0_pay6 (F := Ideal) v122 v124 v127 v134 v137) p
      = dense (mat v134) (rowOf v137) (dense (mat v124) (rowOf v127) (rowAt v122 p)) := by
  unfold k0_pay6
  simp only [truncf_id, shapeCast_self, relu_rowAt, bias_rowAt, mxu_0, mxu_1, mxu_2, mxu_3, mxu_4, mxu_5, mxu_6, mxu_7, mxu_8, mxu_9, mxu_10, mxu_11]
  rfl

/-- Layers 2 to 5, second half, on row `p`. -/
theorem pay8_row (v143 : FVec Ideal S1024x128 .bf16) (v145 : FVec Ideal S128x64 .bf16) (v147 : Vec Ideal S1x64 .f32) (v154 : Vec Ideal S64x32 .bf16) (v157 : Vec Ideal S1x32 .f32) (v164 : Vec Ideal S32x16 .bf16) (v167 : Vec Ideal S1x16 .f32) (v174 : Vec Ideal S16x5 .bf16) (v177 : Vec Ideal S1x5 .f32) (p : Fin 1024) :
    rowAt (k0_pay8 (F := Ideal) v143 v145 v147 v154 v157 v164 v167 v174 v177) p
      = dense (mat v174) (rowOf v177) (dense (mat v164) (rowOf v167) (dense (mat v154) (rowOf v157) (dense (mat v145) (rowOf v147) (rowAt v143 p)))) := by
  unfold k0_pay8
  simp only [truncf_id, shapeCast_self, relu_rowAt, bias_rowAt, mxu_0, mxu_1, mxu_2, mxu_3, mxu_4, mxu_5, mxu_6, mxu_7, mxu_8, mxu_9, mxu_10, mxu_11]
  rfl

/-- Layers 6 to 8 and layer 9 up to its bias, second half, on row `p`. -/
theorem pay9_row (v183 : FVec Ideal S1024x5 .bf16) (v184 : Vec Ideal S5x16 .bf16) (v187 : Vec Ideal S1x16 .f32) (v194 : Vec Ideal S16x32 .bf16) (v197 : Vec Ideal S1x32 .f32) (v204 : Vec Ideal S32x64 .bf16) (v207 : Vec Ideal S1x64 .f32) (v214 : Vec Ideal S64x128 .bf16) (v217 : Vec Ideal S1x128 .f32) (p : Fin 1024) :
    rowAt (k0_pay9 (F := Ideal) v183 v184 v187 v194 v197 v204 v207 v214 v217) p
      = addRow (lin (mat v214) (dense (mat v204) (rowOf v207) (dense (mat v194) (rowOf v197) (dense (mat v184) (rowOf v187) (rowAt v183 p))))) (rowOf v217) := by
  unfold k0_pay9
  simp only [truncf_id, shapeCast_self, relu_rowAt, bias_rowAt, mxu_0, mxu_1, mxu_2, mxu_3, mxu_4, mxu_5, mxu_6, mxu_7, mxu_8, mxu_9, mxu_10, mxu_11]
  rfl

/-- Layer 9's maximum, then layers 10 and 11, second half: what is stored into the tile's last 1024 rows, on row `p`. -/
theorem pay1_row (v220 : FVec Ideal S1024x128 .f32) (v224 : Vec Ideal S128x256 .bf16) (v227 : Vec Ideal S1x256 .f32) (v234 : Vec Ideal S256x512 .bf16) (v237 : Vec Ideal S1x512 .f32) (p : Fin 1024) :
    rowAt (k0_pay1 (F := Ideal) v220 v224 v227 v234 v237) p
      = dense (mat v234) (rowOf v237) (dense (mat v224) (rowOf v227) (relu (rowAt v220 p))) := by
  unfold k0_pay1
  simp only [truncf_id, shapeCast_self, relu_rowAt, bias_rowAt, mxu_0, mxu_1, mxu_2, mxu_3, mxu_4, mxu_5, mxu_6, mxu_7, mxu_8, mxu_9, mxu_10, mxu_11]
  rfl

/-- The weight matrix recast to its own shape is itself. -/
theorem pay7_eq (v144 : Vec Ideal S128x64 .bf16) : k0_pay7 (F := Ideal) v144 = v144 := by
  unfold k0_pay7
  exact shapeCast_self _ _

/-! ## Each half's stored value is the network, row by row -/

/-- The network's parameters as the kernel's body sees them: the staged weight matrices and one-row biases. -/
def blockParams (x1 : Vec Ideal S512x256 .bf16) (x2 : Vec Ideal S1x256 .f32) (x3 : Vec Ideal S256x128 .bf16) (x4 : Vec Ideal S1x128 .f32) (x5 : Vec Ideal S128x64 .bf16) (x6 : Vec Ideal S1x64 .f32) (x7 : Vec Ideal S64x32 .bf16) (x8 : Vec Ideal S1x32 .f32) (x9 : Vec Ideal S32x16 .bf16) (x10 : Vec Ideal S1x16 .f32) (x11 : Vec Ideal S16x5 .bf16) (x12 : Vec Ideal S1x5 .f32) (x13 : Vec Ideal S5x16 .bf16) (x14 : Vec Ideal S1x16 .f32) (x15 : Vec Ideal S16x32 .bf16) (x16 : Vec Ideal S1x32 .f32) (x17 : Vec Ideal S32x64 .bf16) (x18 : Vec Ideal S1x64 .f32) (x19 : Vec Ideal S64x128 .bf16) (x20 : Vec Ideal S1x128 .f32) (x21 : Vec Ideal S128x256 .bf16) (x22 : Vec Ideal S1x256 .f32) (x23 : Vec Ideal S256x512 .bf16) (x24 : Vec Ideal S1x512 .f32) : Params :=
  ⟨mat x1, rowOf x2, mat x3, rowOf x4, mat x5, rowOf x6, mat x7, rowOf x8, mat x9, rowOf x10, mat x11, rowOf x12, mat x13, rowOf x14, mat x15, rowOf x16, mat x17, rowOf x18, mat x19, rowOf x20, mat x21, rowOf x22, mat x23, rowOf x24⟩

/-- The first half's stored value on row `p`: the network on row `p` of the rows it started from. -/
theorem firstHalf_row (a : Vec Ideal S1024x512 .f32) (x1 : Vec Ideal S512x256 .bf16) (x2 : Vec Ideal S1x256 .f32) (x3 : Vec Ideal S256x128 .bf16) (x4 : Vec Ideal S1x128 .f32) (x5 : Vec Ideal S128x64 .bf16) (x6 : Vec Ideal S1x64 .f32) (x7 : Vec Ideal S64x32 .bf16) (x8 : Vec Ideal S1x32 .f32) (x9 : Vec Ideal S32x16 .bf16) (x10 : Vec Ideal S1x16 .f32) (x11 : Vec Ideal S16x5 .bf16) (x12 : Vec Ideal S1x5 .f32) (x13 : Vec Ideal S5x16 .bf16) (x14 : Vec Ideal S1x16 .f32) (x15 : Vec Ideal S16x32 .bf16) (x16 : Vec Ideal S1x32 .f32) (x17 : Vec Ideal S32x64 .bf16) (x18 : Vec Ideal S1x64 .f32) (x19 : Vec Ideal S64x128 .bf16) (x20 : Vec Ideal S1x128 .f32) (x21 : Vec Ideal S128x256 .bf16) (x22 : Vec Ideal S1x256 .f32) (x23 : Vec Ideal S256x512 .bf16) (x24 : Vec Ideal S1x512 .f32) (p : Fin 1024) :
    rowAt (k0_pay5 (F := Ideal) (k0_pay4 (k0_pay3 (k0_pay2 a x1 x2 x3 x4 x5 x6 x7) x8 x9 x10 x11 x12 x13 x14) x15 x16 x17 x18 x19 x20 x21 x22) x23 x24) p
      = net (blockParams x1 x2 x3 x4 x5 x6 x7 x8 x9 x10 x11 x12 x13 x14 x15 x16 x17 x18 x19 x20 x21 x22 x23 x24) (rowAt a p) := by
  rw [pay5_row, pay4_row, pay3_row, pay2_row]
  rfl

/-- The second half's stored value on row `p`: the network on row `p` of the rows it started from. -/
theorem secondHalf_row (a : Vec Ideal S1024x512 .f32) (x1 : Vec Ideal S512x256 .bf16) (x2 : Vec Ideal S1x256 .f32) (x3 : Vec Ideal S256x128 .bf16) (x4 : Vec Ideal S1x128 .f32) (x5 : Vec Ideal S128x64 .bf16) (x6 : Vec Ideal S1x64 .f32) (x7 : Vec Ideal S64x32 .bf16) (x8 : Vec Ideal S1x32 .f32) (x9 : Vec Ideal S32x16 .bf16) (x10 : Vec Ideal S1x16 .f32) (x11 : Vec Ideal S16x5 .bf16) (x12 : Vec Ideal S1x5 .f32) (x13 : Vec Ideal S5x16 .bf16) (x14 : Vec Ideal S1x16 .f32) (x15 : Vec Ideal S16x32 .bf16) (x16 : Vec Ideal S1x32 .f32) (x17 : Vec Ideal S32x64 .bf16) (x18 : Vec Ideal S1x64 .f32) (x19 : Vec Ideal S64x128 .bf16) (x20 : Vec Ideal S1x128 .f32) (x21 : Vec Ideal S128x256 .bf16) (x22 : Vec Ideal S1x256 .f32) (x23 : Vec Ideal S256x512 .bf16) (x24 : Vec Ideal S1x512 .f32) (p : Fin 1024) :
    rowAt (k0_pay1 (F := Ideal) (k0_pay9 (k0_pay8 (k0_pay6 a x1 x2 x3 x4) (k0_pay7 x5) x6 x7 x8 x9 x10 x11 x12) x13 x14 x15 x16 x17 x18 x19 x20) x21 x22 x23 x24) p
      = net (blockParams x1 x2 x3 x4 x5 x6 x7 x8 x9 x10 x11 x12 x13 x14 x15 x16 x17 x18 x19 x20 x21 x22 x23 x24) (rowAt a p) := by
  rw [pay1_row, pay9_row, pay8_row, pay6_row, pay7_eq]
  rfl

end Cert.KernelIdeal.Rows

end
-- ==== Proof.KernelValue.lean ====
import proofs.«413045_j84851373900034_3_alg».proof.Proof.Gen.KernelIdeal.Value
import proofs.«413045_j84851373900034_3_alg».proof.Proof.KernelRows
import Idealize.ShloMosaic.Lib.Pipeline.Value
import Idealize.ShloMosaic.Lib.StableHlo.Run

/-!
# The kernel's output array is the network on every row of its input

At each of the 64 grid points the kernel's body fills a 2048-row output tile from a 2048-row input tile: its first
1024 rows with the network applied to the input tile's first 1024 rows, its last 1024 rows likewise, so the tile is
the network on every row of the input tile. Tile `t` of the input sits at rows 2048·t … 2048·t + 2047 of the input
array and tile `t` of the output at the same rows of the output array; the weights and biases are staged whole and
unchanged (the weights narrowed to bf16, which is the identity at the extended reals; the biases recast as one row).
The 64 tiles cover the output array, so after the run it is the network on every row of the input array.
-/

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.KernelIdeal.Rows Cert.Mlp

theorem hz : (![0, 0] : Fin 2 → Nat) = fun _ => 0 := funext fun a => by fin_cases a <;> rfl

/-! ## A band of rows of the network's result -/

/-- A value whose every row is the network on the matching row of a band of rows of `X` (the rows from `o` on,
    all 512 columns) is that band of the network's result on `X`. -/
theorem band_of_rows {M M' : Nat} (P : Params) (X : Vec Ideal ⟨2, ![M, 512]⟩ .f32) (o : Nat)
    (inb : ∀ a, (![o, 0] : Fin 2 → Nat) a + (⟨2, ![M', 512]⟩ : Shape).size a ≤ (⟨2, ![M, 512]⟩ : Shape).size a)
    (pay : (⟨2, ![M', 512]⟩ : Shape).Idx → EReal)
    (hpay : ∀ p : Fin M', rowAt pay p
      = net P (rowAt (View.ld (Val := Elt Ideal) X (Rect.unit (s := ⟨2, ![M, 512]⟩) ![o, 0] (⟨2, ![M', 512]⟩ : Shape).size inb)) p))
    (x : (⟨2, ![M', 512]⟩ : Shape).Idx) :
    pay x = rowsNet P X ((Rect.unit (s := ⟨2, ![M, 512]⟩) ![o, 0] (⟨2, ![M', 512]⟩ : Shape).size inb).emb x) := by
  obtain ⟨p, n, rfl⟩ : ∃ (p : Fin M') (n : Fin 512), x = ix2 p n := ⟨x 0, x 1, eq_ix2 x⟩
  refine (congrFun (hpay p) n).trans ?_
  have e1 : ((Rect.unit (s := ⟨2, ![M, 512]⟩) ![o, 0] (⟨2, ![M', 512]⟩ : Shape).size inb).emb (ix2 p n)) 1 = n :=
    Fin.ext (by show 0 + 1 * n.val = n.val; omega)
  have e0 : rowAt (View.ld (Val := Elt Ideal) X (Rect.unit (s := ⟨2, ![M, 512]⟩) ![o, 0] (⟨2, ![M', 512]⟩ : Shape).size inb)) p
      = rowAt X (((Rect.unit (s := ⟨2, ![M, 512]⟩) ![o, 0] (⟨2, ![M', 512]⟩ : Shape).size inb).emb (ix2 p n)) 0) := by
    funext q
    show X ((Rect.unit (s := ⟨2, ![M, 512]⟩) ![o, 0] (⟨2, ![M', 512]⟩ : Shape).size inb).emb (ix2 p q)) = X (ix2 _ q)
    refine congrArg X (funext fun a => Fin.ext ?_)
    match a with
    | ⟨0, _⟩ => rfl
    | ⟨1, _⟩ => show 0 + 1 * q.val = q.val; omega
  show net P _ n = net P (rowAt X _) _
  rw [e0, e1]

/-! ## What the body leaves in the output tile -/

/-- The output tile after the body is the network on every row of the input tile. -/
theorem out_eq (x0 : Vec Ideal S2048x512 .f32) (x1 : Vec Ideal S512x256 .bf16) (x2 : Vec Ideal S1x256 .f32) (x3 : Vec Ideal S256x128 .bf16) (x4 : Vec Ideal S1x128 .f32) (x5 : Vec Ideal S128x64 .bf16) (x6 : Vec Ideal S1x64 .f32) (x7 : Vec Ideal S64x32 .bf16) (x8 : Vec Ideal S1x32 .f32) (x9 : Vec Ideal S32x16 .bf16) (x10 : Vec Ideal S1x16 .f32) (x11 : Vec Ideal S16x5 .bf16) (x12 : Vec Ideal S1x5 .f32) (x13 : Vec Ideal S5x16 .bf16) (x14 : Vec Ideal S1x16 .f32) (x15 : Vec Ideal S16x32 .bf16) (x16 : Vec Ideal S1x32 .f32) (x17 : Vec Ideal S32x64 .bf16) (x18 : Vec Ideal S1x64 .f32) (x19 : Vec Ideal S64x128 .bf16) (x20 : Vec Ideal S1x128 .f32) (x21 : Vec Ideal S128x256 .bf16) (x22 : Vec Ideal S1x256 .f32) (x23 : Vec Ideal S256x512 .bf16) (x24 : Vec Ideal S1x512 .f32) :
    out0_25 (F := Ideal) x0 x1 x2 x3 x4 x5 x6 x7 x8 x9 x10 x11 x12 x13 x14 x15 x16 x17 x18 x19 x20 x21 x22 x23 x24 = rowsNet (blockParams x1 x2 x3 x4 x5 x6 x7 x8 x9 x10 x11 x12 x13 x14 x15 x16 x17 x18 x19 x20 x21 x22 x23 x24) x0 := by
  funext y
  unfold out0_25
  simp only [View.ld_unit_zero (S := S512x256) hz, View.ld_unit_zero (S := S1x256) hz, View.ld_unit_zero (S := S256x128) hz, View.ld_unit_zero (S := S1x128) hz, View.ld_unit_zero (S := S128x64) hz, View.ld_unit_zero (S := S1x64) hz, View.ld_unit_zero (S := S64x32) hz, View.ld_unit_zero (S := S1x32) hz, View.ld_unit_zero (S := S32x16) hz, View.ld_unit_zero (S := S1x16) hz, View.ld_unit_zero (S := S16x5) hz, View.ld_unit_zero (S := S1x5) hz, View.ld_unit_zero (S := S5x16) hz, View.ld_unit_zero (S := S16x32) hz, View.ld_unit_zero (S := S32x64) hz, View.ld_unit_zero (S := S64x128) hz, View.ld_unit_zero (S := S128x256) hz, View.ld_unit_zero (S := S256x512) hz, View.ld_unit_zero (S := S1x512) hz]
  refine View.canon_apply_of_pieces (Val := Elt Ideal) (S := S2048x512) (e := .f32) (rowsNet (blockParams x1 x2 x3 x4 x5 x6 x7 x8 x9 x10 x11 x12 x13 x14 x15 x16 x17 x18 x19 x20 x21 x22 x23 x24) x0) _ ?_ y (cover0_25 _ _ y)
  intro pc hpc
  rcases List.mem_cons.mp hpc with rfl | hpc
  · exact fun x => band_of_rows (blockParams x1 x2 x3 x4 x5 x6 x7 x8 x9 x10 x11 x12 x13 x14 x15 x16 x17 x18 x19 x20 x21 x22 x23 x24) x0 1024 _ _ (fun p => secondHalf_row _ x1 x2 x3 x4 x5 x6 x7 x8 x9 x10 x11 x12 x13 x14 x15 x16 x17 x18 x19 x20 x21 x22 x23 x24 p) x
  · rcases List.mem_singleton.mp hpc with rfl
    exact fun x => band_of_rows (blockParams x1 x2 x3 x4 x5 x6 x7 x8 x9 x10 x11 x12 x13 x14 x15 x16 x17 x18 x19 x20 x21 x22 x23 x24) x0 0 _ _ (fun p => firstHalf_row _ x1 x2 x3 x4 x5 x6 x7 x8 x9 x10 x11 x12 x13 x14 x15 x16 x17 x18 x19 x20 x21 x22 x23 x24 p) x

/-! ## The staged weights and biases -/

variable (m : (ℓ : Loc nD τ sig) → Buf (Elt Ideal) ℓ) (ρ : Dev nD → PrngReg)

/-- The network's parameters read off the kernel's argument arrays. -/
abbrev params (c : Dev nD) : Params :=
  arrParams (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))

/-- What the output array ends holding: the network on every row of the first argument. -/
abbrev G (c : Dev nD) : S131072x512.Idx → EReal := rowsNet (params m c) (m ((c.tc : Thread nD τ).loc main_arg0))

/-! The weight and bias windows keep block index (0, 0) at every grid point (decided over the 64 points). -/

theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)
theorem idx_14 : ∀ t : Fin cfg0.N, win0_14.index t (0 : Fin 2) = 0 ∧ win0_14.index t (1 : Fin 2) = 0 :=
  (by decide +kernel : ∀ t : Fin grid0.N, _)
theorem idx_15 : ∀ t : Fin cfg0.N, win0_15.index t (0 : Fin 2) = 0 ∧ win0_15.index t (1 : Fin 2) = 0 :=
  (by decide +kernel : ∀ t : Fin grid0.N, _)
theorem idx_16 : ∀ t : Fin cfg0.N, win0_16.index t (0 : Fin 2) = 0 ∧ win0_16.index t (1 : Fin 2) = 0 :=
  (by decide +kernel : ∀ t : Fin grid0.N, _)
theorem idx_17 : ∀ t : Fin cfg0.N, win0_17.index t (0 : Fin 2) = 0 ∧ win0_17.index t (1 : Fin 2) = 0 :=
  (by decide +kernel : ∀ t : Fin grid0.N, _)
theorem idx_18 : ∀ t : Fin cfg0.N, win0_18.index t (0 : Fin 2) = 0 ∧ win0_18.index t (1 : Fin 2) = 0 :=
  (by decide +kernel : ∀ t : Fin grid0.N, _)
theorem idx_19 : ∀ t : Fin cfg0.N, win0_19.index t (0 : Fin 2) = 0 ∧ win0_19.index t (1 : Fin 2) = 0 :=
  (by decide +kernel : ∀ t : Fin grid0.N, _)
theorem idx_20 : ∀ t : Fin cfg0.N, win0_20.index t (0 : Fin 2) = 0 ∧ win0_20.index t (1 : Fin 2) = 0 :=
  (by decide +kernel : ∀ t : Fin grid0.N, _)
theorem idx_21 : ∀ t : Fin cfg0.N, win0_21.index t (0 : Fin 2) = 0 ∧ win0_21.index t (1 : Fin 2) = 0 :=
  (by decide +kernel : ∀ t : Fin grid0.N, _)
theorem idx_22 : ∀ t : Fin cfg0.N, win0_22.index t (0 : Fin 2) = 0 ∧ win0_22.index t (1 : Fin 2) = 0 :=
  (by decide +kernel : ∀ t : Fin grid0.N, _)
theorem idx_23 : ∀ t : Fin cfg0.N, win0_23.index t (0 : Fin 2) = 0 ∧ win0_23.index t (1 : Fin 2) = 0 :=
  (by decide +kernel : ∀ t : Fin grid0.N, _)
theorem idx_24 : ∀ t : Fin cfg0.N, win0_24.index t (0 : Fin 2) = 0 ∧ win0_24.index t (1 : Fin 2) = 0 :=
  (by decide +kernel : ∀ t : Fin grid0.N, _)

/-- Layer 0's staged weight block is the weight array, whatever the grid point. -/
theorem wblk_0 (c : Dev nD) (t : Fin cfg0.N) :
    mat (iblk m c 1 t : Vec Ideal S512x256 .bf16) = mat (m ((c.tc : Thread nD τ).loc main_arg1)) := by
  obtain ⟨e0, e1⟩ := idx_1 t
  have hV : (V m c main_v0 : S512x256.Idx → EReal) = (truncf (F := Ideal) (s := S512x256) (φ := .f32) .bf16 (m ((c.tc : Thread nD τ).loc main_arg1)) bitsLt_bf16_f32 : S512x256.Idx → EReal) := by
    dsimp only [Gen.V, Gen.hostOps0]; after_results
  funext q n
  show V m c main_v0 (((cfg0.win 1).blk t).view.emb (ix2 q n)) = (m ((c.tc : Thread nD τ).loc main_arg1)) (ix2 q n)
  have he : ((cfg0.win 1).blk t).view.emb (ix2 q n) = ix2 q n := by
    funext a; apply Fin.ext
    match a with
    | ⟨0, _⟩ => show win0_1.index t (0 : Fin 2) * 512 + 1 * q.val = q.val; omega
    | ⟨1, _⟩ => show win0_1.index t (1 : Fin 2) * 256 + 1 * n.val = n.val; omega
  rw [he, hV]
  rfl

/-- Layer 0's staged one-row bias block is the bias array, whatever the grid point. -/
theorem bblk_0 (c : Dev nD) (t : Fin cfg0.N) :
    rowOf (iblk m c 2 t : Vec Ideal S1x256 .f32) = vecOf (m ((c.tc : Thread nD τ).loc main_arg2)) := by
  obtain ⟨e0, e1⟩ := idx_2 t
  have hV : (V m c main_v12 : S1x256.Idx → EReal) = shapeCast S1x256 (m ((c.tc : Thread nD τ).loc main_arg2)) shapeCasts_S256_S1x256 := by
    dsimp only [Gen.V, Gen.hostOps0]; after_results; rfl
  funext n
  show V m c main_v12 (((cfg0.win 2).blk t).view.emb (ix2 (0 : Fin 1) n)) = (m ((c.tc : Thread nD τ).loc main_arg2)) (ix1 n)
  have he : ((cfg0.win 2).blk t).view.emb (ix2 (0 : Fin 1) n) = ix2 (0 : Fin 1) n := by
    funext a; apply Fin.ext
    match a with
    | ⟨0, _⟩ => show win0_2.index t (0 : Fin 2) * 1 + 1 * 0 = 0; omega
    | ⟨1, _⟩ => show win0_2.index t (1 : Fin 2) * 256 + 1 * n.val = n.val; omega
  rw [he, hV]
  exact shapeCast_a_1a_apply _ _ 0 n

/-- Layer 1's staged weight block is the weight array, whatever the grid point. -/
theorem wblk_1 (c : Dev nD) (t : Fin cfg0.N) :
    mat (iblk m c 3 t : Vec Ideal S256x128 .bf16) = mat (m ((c.tc : Thread nD τ).loc main_arg3)) := by
  obtain ⟨e0, e1⟩ := idx_3 t
  have hV : (V m c main_v1 : S256x128.Idx → EReal) = (truncf (F := Ideal) (s := S256x128) (φ := .f32) .bf16 (m ((c.tc : Thread nD τ).loc main_arg3)) bitsLt_bf16_f32 : S256x128.Idx → EReal) := by
    dsimp only [Gen.V, Gen.hostOps0]; after_results
  funext q n
  show V m c main_v1 (((cfg0.win 3).blk t).view.emb (ix2 q n)) = (m ((c.tc : Thread nD τ).loc main_arg3)) (ix2 q n)
  have he : ((cfg0.win 3).blk t).view.emb (ix2 q n) = ix2 q n := by
    funext a; apply Fin.ext
    match a with
    | ⟨0, _⟩ => show win0_3.index t (0 : Fin 2) * 256 + 1 * q.val = q.val; omega
    | ⟨1, _⟩ => show win0_3.index t (1 : Fin 2) * 128 + 1 * n.val = n.val; omega
  rw [he, hV]
  rfl

/-- Layer 1's staged one-row bias block is the bias array, whatever the grid point. -/
theorem bblk_1 (c : Dev nD) (t : Fin cfg0.N) :
    rowOf (iblk m c 4 t : Vec Ideal S1x128 .f32) = vecOf (m ((c.tc : Thread nD τ).loc main_arg4)) := by
  obtain ⟨e0, e1⟩ := idx_4 t
  have hV : (V m c main_v13 : S1x128.Idx → EReal) = shapeCast S1x128 (m ((c.tc : Thread nD τ).loc main_arg4)) shapeCasts_S128_S1x128 := by
    dsimp only [Gen.V, Gen.hostOps0]; after_results; rfl
  funext n
  show V m c main_v13 (((cfg0.win 4).blk t).view.emb (ix2 (0 : Fin 1) n)) = (m ((c.tc : Thread nD τ).loc main_arg4)) (ix1 n)
  have he : ((cfg0.win 4).blk t).view.emb (ix2 (0 : Fin 1) n) = ix2 (0 : Fin 1) n := by
    funext a; apply Fin.ext
    match a with
    | ⟨0, _⟩ => show win0_4.index t (0 : Fin 2) * 1 + 1 * 0 = 0; omega
    | ⟨1, _⟩ => show win0_4.index t (1 : Fin 2) * 128 + 1 * n.val = n.val; omega
  rw [he, hV]
  exact shapeCast_a_1a_apply _ _ 0 n

/-- Layer 2's staged weight block is the weight array, whatever the grid point. -/
theorem wblk_2 (c : Dev nD) (t : Fin cfg0.N) :
    mat (iblk m c 5 t : Vec Ideal S128x64 .bf16) = mat (m ((c.tc : Thread nD τ).loc main_arg5)) := by
  obtain ⟨e0, e1⟩ := idx_5 t
  have hV : (V m c main_v2 : S128x64.Idx → EReal) = (truncf (F := Ideal) (s := S128x64) (φ := .f32) .bf16 (m ((c.tc : Thread nD τ).loc main_arg5)) bitsLt_bf16_f32 : S128x64.Idx → EReal) := by
    dsimp only [Gen.V, Gen.hostOps0]; after_results
  funext q n
  show V m c main_v2 (((cfg0.win 5).blk t).view.emb (ix2 q n)) = (m ((c.tc : Thread nD τ).loc main_arg5)) (ix2 q n)
  have he : ((cfg0.win 5).blk t).view.emb (ix2 q n) = ix2 q n := by
    funext a; apply Fin.ext
    match a with
    | ⟨0, _⟩ => show win0_5.index t (0 : Fin 2) * 128 + 1 * q.val = q.val; omega
    | ⟨1, _⟩ => show win0_5.index t (1 : Fin 2) * 64 + 1 * n.val = n.val; omega
  rw [he, hV]
  rfl

/-- Layer 2's staged one-row bias block is the bias array, whatever the grid point. -/
theorem bblk_2 (c : Dev nD) (t : Fin cfg0.N) :
    rowOf (iblk m c 6 t : Vec Ideal S1x64 .f32) = vecOf (m ((c.tc : Thread nD τ).loc main_arg6)) := by
  obtain ⟨e0, e1⟩ := idx_6 t
  have hV : (V m c main_v14 : S1x64.Idx → EReal) = shapeCast S1x64 (m ((c.tc : Thread nD τ).loc main_arg6)) shapeCasts_S64_S1x64 := by
    dsimp only [Gen.V, Gen.hostOps0]; after_results; rfl
  funext n
  show V m c main_v14 (((cfg0.win 6).blk t).view.emb (ix2 (0 : Fin 1) n)) = (m ((c.tc : Thread nD τ).loc main_arg6)) (ix1 n)
  have he : ((cfg0.win 6).blk t).view.emb (ix2 (0 : Fin 1) n) = ix2 (0 : Fin 1) n := by
    funext a; apply Fin.ext
    match a with
    | ⟨0, _⟩ => show win0_6.index t (0 : Fin 2) * 1 + 1 * 0 = 0; omega
    | ⟨1, _⟩ => show win0_6.index t (1 : Fin 2) * 64 + 1 * n.val = n.val; omega
  rw [he, hV]
  exact shapeCast_a_1a_apply _ _ 0 n

/-- Layer 3's staged weight block is the weight array, whatever the grid point. -/
theorem wblk_3 (c : Dev nD) (t : Fin cfg0.N) :
    mat (iblk m c 7 t : Vec Ideal S64x32 .bf16) = mat (m ((c.tc : Thread nD τ).loc main_arg7)) := by
  obtain ⟨e0, e1⟩ := idx_7 t
  have hV : (V m c main_v3 : S64x32.Idx → EReal) = (truncf (F := Ideal) (s := S64x32) (φ := .f32) .bf16 (m ((c.tc : Thread nD τ).loc main_arg7)) bitsLt_bf16_f32 : S64x32.Idx → EReal) := by
    dsimp only [Gen.V, Gen.hostOps0]; after_results
  funext q n
  show V m c main_v3 (((cfg0.win 7).blk t).view.emb (ix2 q n)) = (m ((c.tc : Thread nD τ).loc main_arg7)) (ix2 q n)
  have he : ((cfg0.win 7).blk t).view.emb (ix2 q n) = ix2 q n := by
    funext a; apply Fin.ext
    match a with
    | ⟨0, _⟩ => show win0_7.index t (0 : Fin 2) * 64 + 1 * q.val = q.val; omega
    | ⟨1, _⟩ => show win0_7.index t (1 : Fin 2) * 32 + 1 * n.val = n.val; omega
  rw [he, hV]
  rfl

/-- Layer 3's staged one-row bias block is the bias array, whatever the grid point. -/
theorem bblk_3 (c : Dev nD) (t : Fin cfg0.N) :
    rowOf (iblk m c 8 t : Vec Ideal S1x32 .f32) = vecOf (m ((c.tc : Thread nD τ).loc main_arg8)) := by
  obtain ⟨e0, e1⟩ := idx_8 t
  have hV : (V m c main_v15 : S1x32.Idx → EReal) = shapeCast S1x32 (m ((c.tc : Thread nD τ).loc main_arg8)) shapeCasts_S32_S1x32 := by
    dsimp only [Gen.V, Gen.hostOps0]; after_results; rfl
  funext n
  show V m c main_v15 (((cfg0.win 8).blk t).view.emb (ix2 (0 : Fin 1) n)) = (m ((c.tc : Thread nD τ).loc main_arg8)) (ix1 n)
  have he : ((cfg0.win 8).blk t).view.emb (ix2 (0 : Fin 1) n) = ix2 (0 : Fin 1) n := by
    funext a; apply Fin.ext
    match a with
    | ⟨0, _⟩ => show win0_8.index t (0 : Fin 2) * 1 + 1 * 0 = 0; omega
    | ⟨1, _⟩ => show win0_8.index t (1 : Fin 2) * 32 + 1 * n.val = n.val; omega
  rw [he, hV]
  exact shapeCast_a_1a_apply _ _ 0 n

/-- Layer 4's staged weight block is the weight array, whatever the grid point. -/
theorem wblk_4 (c : Dev nD) (t : Fin cfg0.N) :
    mat (iblk m c 9 t : Vec Ideal S32x16 .bf16) = mat (m ((c.tc : Thread nD τ).loc main_arg9)) := by
  obtain ⟨e0, e1⟩ := idx_9 t
  have hV : (V m c main_v4 : S32x16.Idx → EReal) = (truncf (F := Ideal) (s := S32x16) (φ := .f32) .bf16 (m ((c.tc : Thread nD τ).loc main_arg9)) bitsLt_bf16_f32 : S32x16.Idx → EReal) := by
    dsimp only [Gen.V, Gen.hostOps0]; after_results
  funext q n
  show V m c main_v4 (((cfg0.win 9).blk t).view.emb (ix2 q n)) = (m ((c.tc : Thread nD τ).loc main_arg9)) (ix2 q n)
  have he : ((cfg0.win 9).blk t).view.emb (ix2 q n) = ix2 q n := by
    funext a; apply Fin.ext
    match a with
    | ⟨0, _⟩ => show win0_9.index t (0 : Fin 2) * 32 + 1 * q.val = q.val; omega
    | ⟨1, _⟩ => show win0_9.index t (1 : Fin 2) * 16 + 1 * n.val = n.val; omega
  rw [he, hV]
  rfl

/-- Layer 4's staged one-row bias block is the bias array, whatever the grid point. -/
theorem bblk_4 (c : Dev nD) (t : Fin cfg0.N) :
    rowOf (iblk m c 10 t : Vec Ideal S1x16 .f32) = vecOf (m ((c.tc : Thread nD τ).loc main_arg10)) := by
  obtain ⟨e0, e1⟩ := idx_10 t
  have hV : (V m c main_v16 : S1x16.Idx → EReal) = shapeCast S1x16 (m ((c.tc : Thread nD τ).loc main_arg10)) shapeCasts_S16_S1x16 := by
    dsimp only [Gen.V, Gen.hostOps0]; after_results; rfl
  funext n
  show V m c main_v16 (((cfg0.win 10).blk t).view.emb (ix2 (0 : Fin 1) n)) = (m ((c.tc : Thread nD τ).loc main_arg10)) (ix1 n)
  have he : ((cfg0.win 10).blk t).view.emb (ix2 (0 : Fin 1) n) = ix2 (0 : Fin 1) n := by
    funext a; apply Fin.ext
    match a with
    | ⟨0, _⟩ => show win0_10.index t (0 : Fin 2) * 1 + 1 * 0 = 0; omega
    | ⟨1, _⟩ => show win0_10.index t (1 : Fin 2) * 16 + 1 * n.val = n.val; omega
  rw [he, hV]
  exact shapeCast_a_1a_apply _ _ 0 n

/-- Layer 5's staged weight block is the weight array, whatever the grid point. -/
theorem wblk_5 (c : Dev nD) (t : Fin cfg0.N) :
    mat (iblk m c 11 t : Vec Ideal S16x5 .bf16) = mat (m ((c.tc : Thread nD τ).loc main_arg11)) := by
  obtain ⟨e0, e1⟩ := idx_11 t
  have hV : (V m c main_v5 : S16x5.Idx → EReal) = (truncf (F := Ideal) (s := S16x5) (φ := .f32) .bf16 (m ((c.tc : Thread nD τ).loc main_arg11)) bitsLt_bf16_f32 : S16x5.Idx → EReal) := by
    dsimp only [Gen.V, Gen.hostOps0]; after_results
  funext q n
  show V m c main_v5 (((cfg0.win 11).blk t).view.emb (ix2 q n)) = (m ((c.tc : Thread nD τ).loc main_arg11)) (ix2 q n)
  have he : ((cfg0.win 11).blk t).view.emb (ix2 q n) = ix2 q n := by
    funext a; apply Fin.ext
    match a with
    | ⟨0, _⟩ => show win0_11.index t (0 : Fin 2) * 16 + 1 * q.val = q.val; omega
    | ⟨1, _⟩ => show win0_11.index t (1 : Fin 2) * 5 + 1 * n.val = n.val; omega
  rw [he, hV]
  rfl

/-- Layer 5's staged one-row bias block is the bias array, whatever the grid point. -/
theorem bblk_5 (c : Dev nD) (t : Fin cfg0.N) :
    rowOf (iblk m c 12 t : Vec Ideal S1x5 .f32) = vecOf (m ((c.tc : Thread nD τ).loc main_arg12)) := by
  obtain ⟨e0, e1⟩ := idx_12 t
  have hV : (V m c main_v17 : S1x5.Idx → EReal) = shapeCast S1x5 (m ((c.tc : Thread nD τ).loc main_arg12)) shapeCasts_S5_S1x5 := by
    dsimp only [Gen.V, Gen.hostOps0]; after_results; rfl
  funext n
  show V m c main_v17 (((cfg0.win 12).blk t).view.emb (ix2 (0 : Fin 1) n)) = (m ((c.tc : Thread nD τ).loc main_arg12)) (ix1 n)
  have he : ((cfg0.win 12).blk t).view.emb (ix2 (0 : Fin 1) n) = ix2 (0 : Fin 1) n := by
    funext a; apply Fin.ext
    match a with
    | ⟨0, _⟩ => show win0_12.index t (0 : Fin 2) * 1 + 1 * 0 = 0; omega
    | ⟨1, _⟩ => show win0_12.index t (1 : Fin 2) * 5 + 1 * n.val = n.val; omega
  rw [he, hV]
  exact shapeCast_a_1a_apply _ _ 0 n

/-- Layer 6's staged weight block is the weight array, whatever the grid point. -/
theorem wblk_6 (c : Dev nD) (t : Fin cfg0.N) :
    mat (iblk m c 13 t : Vec Ideal S5x16 .bf16) = mat (m ((c.tc : Thread nD τ).loc main_arg13)) := by
  obtain ⟨e0, e1⟩ := idx_13 t
  have hV : (V m c main_v6 : S5x16.Idx → EReal) = (truncf (F := Ideal) (s := S5x16) (φ := .f32) .bf16 (m ((c.tc : Thread nD τ).loc main_arg13)) bitsLt_bf16_f32 : S5x16.Idx → EReal) := by
    dsimp only [Gen.V, Gen.hostOps0]; after_results
  funext q n
  show V m c main_v6 (((cfg0.win 13).blk t).view.emb (ix2 q n)) = (m ((c.tc : Thread nD τ).loc main_arg13)) (ix2 q n)
  have he : ((cfg0.win 13).blk t).view.emb (ix2 q n) = ix2 q n := by
    funext a; apply Fin.ext
    match a with
    | ⟨0, _⟩ => show win0_13.index t (0 : Fin 2) * 5 + 1 * q.val = q.val; omega
    | ⟨1, _⟩ => show win0_13.index t (1 : Fin 2) * 16 + 1 * n.val = n.val; omega
  rw [he, hV]
  rfl

/-- Layer 6's staged one-row bias block is the bias array, whatever the grid point. -/
theorem bblk_6 (c : Dev nD) (t : Fin cfg0.N) :
    rowOf (iblk m c 14 t : Vec Ideal S1x16 .f32) = vecOf (m ((c.tc : Thread nD τ).loc main_arg14)) := by
  obtain ⟨e0, e1⟩ := idx_14 t
  have hV : (V m c main_v18 : S1x16.Idx → EReal) = shapeCast S1x16 (m ((c.tc : Thread nD τ).loc main_arg14)) shapeCasts_S16_S1x16 := by
    dsimp only [Gen.V, Gen.hostOps0]; after_results; rfl
  funext n
  show V m c main_v18 (((cfg0.win 14).blk t).view.emb (ix2 (0 : Fin 1) n)) = (m ((c.tc : Thread nD τ).loc main_arg14)) (ix1 n)
  have he : ((cfg0.win 14).blk t).view.emb (ix2 (0 : Fin 1) n) = ix2 (0 : Fin 1) n := by
    funext a; apply Fin.ext
    match a with
    | ⟨0, _⟩ => show win0_14.index t (0 : Fin 2) * 1 + 1 * 0 = 0; omega
    | ⟨1, _⟩ => show win0_14.index t (1 : Fin 2) * 16 + 1 * n.val = n.val; omega
  rw [he, hV]
  exact shapeCast_a_1a_apply _ _ 0 n

/-- Layer 7's staged weight block is the weight array, whatever the grid point. -/
theorem wblk_7 (c : Dev nD) (t : Fin cfg0.N) :
    mat (iblk m c 15 t : Vec Ideal S16x32 .bf16) = mat (m ((c.tc : Thread nD τ).loc main_arg15)) := by
  obtain ⟨e0, e1⟩ := idx_15 t
  have hV : (V m c main_v7 : S16x32.Idx → EReal) = (truncf (F := Ideal) (s := S16x32) (φ := .f32) .bf16 (m ((c.tc : Thread nD τ).loc main_arg15)) bitsLt_bf16_f32 : S16x32.Idx → EReal) := by
    dsimp only [Gen.V, Gen.hostOps0]; after_results
  funext q n
  show V m c main_v7 (((cfg0.win 15).blk t).view.emb (ix2 q n)) = (m ((c.tc : Thread nD τ).loc main_arg15)) (ix2 q n)
  have he : ((cfg0.win 15).blk t).view.emb (ix2 q n) = ix2 q n := by
    funext a; apply Fin.ext
    match a with
    | ⟨0, _⟩ => show win0_15.index t (0 : Fin 2) * 16 + 1 * q.val = q.val; omega
    | ⟨1, _⟩ => show win0_15.index t (1 : Fin 2) * 32 + 1 * n.val = n.val; omega
  rw [he, hV]
  rfl

/-- Layer 7's staged one-row bias block is the bias array, whatever the grid point. -/
theorem bblk_7 (c : Dev nD) (t : Fin cfg0.N) :
    rowOf (iblk m c 16 t : Vec Ideal S1x32 .f32) = vecOf (m ((c.tc : Thread nD τ).loc main_arg16)) := by
  obtain ⟨e0, e1⟩ := idx_16 t
  have hV : (V m c main_v19 : S1x32.Idx → EReal) = shapeCast S1x32 (m ((c.tc : Thread nD τ).loc main_arg16)) shapeCasts_S32_S1x32 := by
    dsimp only [Gen.V, Gen.hostOps0]; after_results; rfl
  funext n
  show V m c main_v19 (((cfg0.win 16).blk t).view.emb (ix2 (0 : Fin 1) n)) = (m ((c.tc : Thread nD τ).loc main_arg16)) (ix1 n)
  have he : ((cfg0.win 16).blk t).view.emb (ix2 (0 : Fin 1) n) = ix2 (0 : Fin 1) n := by
    funext a; apply Fin.ext
    match a with
    | ⟨0, _⟩ => show win0_16.index t (0 : Fin 2) * 1 + 1 * 0 = 0; omega
    | ⟨1, _⟩ => show win0_16.index t (1 : Fin 2) * 32 + 1 * n.val = n.val; omega
  rw [he, hV]
  exact shapeCast_a_1a_apply _ _ 0 n

/-- Layer 8's staged weight block is the weight array, whatever the grid point. -/
theorem wblk_8 (c : Dev nD) (t : Fin cfg0.N) :
    mat (iblk m c 17 t : Vec Ideal S32x64 .bf16) = mat (m ((c.tc : Thread nD τ).loc main_arg17)) := by
  obtain ⟨e0, e1⟩ := idx_17 t
  have hV : (V m c main_v8 : S32x64.Idx → EReal) = (truncf (F := Ideal) (s := S32x64) (φ := .f32) .bf16 (m ((c.tc : Thread nD τ).loc main_arg17)) bitsLt_bf16_f32 : S32x64.Idx → EReal) := by
    dsimp only [Gen.V, Gen.hostOps0]; after_results
  funext q n
  show V m c main_v8 (((cfg0.win 17).blk t).view.emb (ix2 q n)) = (m ((c.tc : Thread nD τ).loc main_arg17)) (ix2 q n)
  have he : ((cfg0.win 17).blk t).view.emb (ix2 q n) = ix2 q n := by
    funext a; apply Fin.ext
    match a with
    | ⟨0, _⟩ => show win0_17.index t (0 : Fin 2) * 32 + 1 * q.val = q.val; omega
    | ⟨1, _⟩ => show win0_17.index t (1 : Fin 2) * 64 + 1 * n.val = n.val; omega
  rw [he, hV]
  rfl

/-- Layer 8's staged one-row bias block is the bias array, whatever the grid point. -/
theorem bblk_8 (c : Dev nD) (t : Fin cfg0.N) :
    rowOf (iblk m c 18 t : Vec Ideal S1x64 .f32) = vecOf (m ((c.tc : Thread nD τ).loc main_arg18)) := by
  obtain ⟨e0, e1⟩ := idx_18 t
  have hV : (V m c main_v20 : S1x64.Idx → EReal) = shapeCast S1x64 (m ((c.tc : Thread nD τ).loc main_arg18)) shapeCasts_S64_S1x64 := by
    dsimp only [Gen.V, Gen.hostOps0]; after_results; rfl
  funext n
  show V m c main_v20 (((cfg0.win 18).blk t).view.emb (ix2 (0 : Fin 1) n)) = (m ((c.tc : Thread nD τ).loc main_arg18)) (ix1 n)
  have he : ((cfg0.win 18).blk t).view.emb (ix2 (0 : Fin 1) n) = ix2 (0 : Fin 1) n := by
    funext a; apply Fin.ext
    match a with
    | ⟨0, _⟩ => show win0_18.index t (0 : Fin 2) * 1 + 1 * 0 = 0; omega
    | ⟨1, _⟩ => show win0_18.index t (1 : Fin 2) * 64 + 1 * n.val = n.val; omega
  rw [he, hV]
  exact shapeCast_a_1a_apply _ _ 0 n

/-- Layer 9's staged weight block is the weight array, whatever the grid point. -/
theorem wblk_9 (c : Dev nD) (t : Fin cfg0.N) :
    mat (iblk m c 19 t : Vec Ideal S64x128 .bf16) = mat (m ((c.tc : Thread nD τ).loc main_arg19)) := by
  obtain ⟨e0, e1⟩ := idx_19 t
  have hV : (V m c main_v9 : S64x128.Idx → EReal) = (truncf (F := Ideal) (s := S64x128) (φ := .f32) .bf16 (m ((c.tc : Thread nD τ).loc main_arg19)) bitsLt_bf16_f32 : S64x128.Idx → EReal) := by
    dsimp only [Gen.V, Gen.hostOps0]; after_results
  funext q n
  show V m c main_v9 (((cfg0.win 19).blk t).view.emb (ix2 q n)) = (m ((c.tc : Thread nD τ).loc main_arg19)) (ix2 q n)
  have he : ((cfg0.win 19).blk t).view.emb (ix2 q n) = ix2 q n := by
    funext a; apply Fin.ext
    match a with
    | ⟨0, _⟩ => show win0_19.index t (0 : Fin 2) * 64 + 1 * q.val = q.val; omega
    | ⟨1, _⟩ => show win0_19.index t (1 : Fin 2) * 128 + 1 * n.val = n.val; omega
  rw [he, hV]
  rfl

/-- Layer 9's staged one-row bias block is the bias array, whatever the grid point. -/
theorem bblk_9 (c : Dev nD) (t : Fin cfg0.N) :
    rowOf (iblk m c 20 t : Vec Ideal S1x128 .f32) = vecOf (m ((c.tc : Thread nD τ).loc main_arg20)) := by
  obtain ⟨e0, e1⟩ := idx_20 t
  have hV : (V m c main_v21 : S1x128.Idx → EReal) = shapeCast S1x128 (m ((c.tc : Thread nD τ).loc main_arg20)) shapeCasts_S128_S1x128 := by
    dsimp only [Gen.V, Gen.hostOps0]; after_results; rfl
  funext n
  show V m c main_v21 (((cfg0.win 20).blk t).view.emb (ix2 (0 : Fin 1) n)) = (m ((c.tc : Thread nD τ).loc main_arg20)) (ix1 n)
  have he : ((cfg0.win 20).blk t).view.emb (ix2 (0 : Fin 1) n) = ix2 (0 : Fin 1) n := by
    funext a; apply Fin.ext
    match a with
    | ⟨0, _⟩ => show win0_20.index t (0 : Fin 2) * 1 + 1 * 0 = 0; omega
    | ⟨1, _⟩ => show win0_20.index t (1 : Fin 2) * 128 + 1 * n.val = n.val; omega
  rw [he, hV]
  exact shapeCast_a_1a_apply _ _ 0 n

/-- Layer 10's staged weight block is the weight array, whatever the grid point. -/
theorem wblk_10 (c : Dev nD) (t : Fin cfg0.N) :
    mat (iblk m c 21 t : Vec Ideal S128x256 .bf16) = mat (m ((c.tc : Thread nD τ).loc main_arg21)) := by
  obtain ⟨e0, e1⟩ := idx_21 t
  have hV : (V m c main_v10 : S128x256.Idx → EReal) = (truncf (F := Ideal) (s := S128x256) (φ := .f32) .bf16 (m ((c.tc : Thread nD τ).loc main_arg21)) bitsLt_bf16_f32 : S128x256.Idx → EReal) := by
    dsimp only [Gen.V, Gen.hostOps0]; after_results
  funext q n
  show V m c main_v10 (((cfg0.win 21).blk t).view.emb (ix2 q n)) = (m ((c.tc : Thread nD τ).loc main_arg21)) (ix2 q n)
  have he : ((cfg0.win 21).blk t).view.emb (ix2 q n) = ix2 q n := by
    funext a; apply Fin.ext
    match a with
    | ⟨0, _⟩ => show win0_21.index t (0 : Fin 2) * 128 + 1 * q.val = q.val; omega
    | ⟨1, _⟩ => show win0_21.index t (1 : Fin 2) * 256 + 1 * n.val = n.val; omega
  rw [he, hV]
  rfl

/-- Layer 10's staged one-row bias block is the bias array, whatever the grid point. -/
theorem bblk_10 (c : Dev nD) (t : Fin cfg0.N) :
    rowOf (iblk m c 22 t : Vec Ideal S1x256 .f32) = vecOf (m ((c.tc : Thread nD τ).loc main_arg22)) := by
  obtain ⟨e0, e1⟩ := idx_22 t
  have hV : (V m c main_v22 : S1x256.Idx → EReal) = shapeCast S1x256 (m ((c.tc : Thread nD τ).loc main_arg22)) shapeCasts_S256_S1x256 := by
    dsimp only [Gen.V, Gen.hostOps0]; after_results; rfl
  funext n
  show V m c main_v22 (((cfg0.win 22).blk t).view.emb (ix2 (0 : Fin 1) n)) = (m ((c.tc : Thread nD τ).loc main_arg22)) (ix1 n)
  have he : ((cfg0.win 22).blk t).view.emb (ix2 (0 : Fin 1) n) = ix2 (0 : Fin 1) n := by
    funext a; apply Fin.ext
    match a with
    | ⟨0, _⟩ => show win0_22.index t (0 : Fin 2) * 1 + 1 * 0 = 0; omega
    | ⟨1, _⟩ => show win0_22.index t (1 : Fin 2) * 256 + 1 * n.val = n.val; omega
  rw [he, hV]
  exact shapeCast_a_1a_apply _ _ 0 n

/-- Layer 11's staged weight block is the weight array, whatever the grid point. -/
theorem wblk_11 (c : Dev nD) (t : Fin cfg0.N) :
    mat (iblk m c 23 t : Vec Ideal S256x512 .bf16) = mat (m ((c.tc : Thread nD τ).loc main_arg23)) := by
  obtain ⟨e0, e1⟩ := idx_23 t
  have hV : (V m c main_v11 : S256x512.Idx → EReal) = (truncf (F := Ideal) (s := S256x512) (φ := .f32) .bf16 (m ((c.tc : Thread nD τ).loc main_arg23)) bitsLt_bf16_f32 : S256x512.Idx → EReal) := by
    dsimp only [Gen.V, Gen.hostOps0]; after_results
  funext q n
  show V m c main_v11 (((cfg0.win 23).blk t).view.emb (ix2 q n)) = (m ((c.tc : Thread nD τ).loc main_arg23)) (ix2 q n)
  have he : ((cfg0.win 23).blk t).view.emb (ix2 q n) = ix2 q n := by
    funext a; apply Fin.ext
    match a with
    | ⟨0, _⟩ => show win0_23.index t (0 : Fin 2) * 256 + 1 * q.val = q.val; omega
    | ⟨1, _⟩ => show win0_23.index t (1 : Fin 2) * 512 + 1 * n.val = n.val; omega
  rw [he, hV]
  rfl

/-- Layer 11's staged one-row bias block is the bias array, whatever the grid point. -/
theorem bblk_11 (c : Dev nD) (t : Fin cfg0.N) :
    rowOf (iblk m c 24 t : Vec Ideal S1x512 .f32) = vecOf (m ((c.tc : Thread nD τ).loc main_arg24)) := by
  obtain ⟨e0, e1⟩ := idx_24 t
  have hV : (V m c main_v23 : S1x512.Idx → EReal) = shapeCast S1x512 (m ((c.tc : Thread nD τ).loc main_arg24)) shapeCasts_S512_S1x512 := by
    dsimp only [Gen.V, Gen.hostOps0]; after_results; rfl
  funext n
  show V m c main_v23 (((cfg0.win 24).blk t).view.emb (ix2 (0 : Fin 1) n)) = (m ((c.tc : Thread nD τ).loc main_arg24)) (ix1 n)
  have he : ((cfg0.win 24).blk t).view.emb (ix2 (0 : Fin 1) n) = ix2 (0 : Fin 1) n := by
    funext a; apply Fin.ext
    match a with
    | ⟨0, _⟩ => show win0_24.index t (0 : Fin 2) * 1 + 1 * 0 = 0; omega
    | ⟨1, _⟩ => show win0_24.index t (1 : Fin 2) * 512 + 1 * n.val = n.val; omega
  rw [he, hV]
  exact shapeCast_a_1a_apply _ _ 0 n

/-- So the parameters the body sees at any grid point are the arguments'. -/
theorem bparams_eq (c : Dev nD) (t : Fin cfg0.N) :
    blockParams (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) = params m c := by
  unfold blockParams
  rw [wblk_0 m c t, bblk_0 m c t, wblk_1 m c t, bblk_1 m c t, wblk_2 m c t, bblk_2 m c t, wblk_3 m c t, bblk_3 m c t, wblk_4 m c t, bblk_4 m c t, wblk_5 m c t, bblk_5 m c t, wblk_6 m c t, bblk_6 m c t, wblk_7 m c t, bblk_7 m c t, wblk_8 m c t, bblk_8 m c t, wblk_9 m c t, bblk_9 m c t, wblk_10 m c t, bblk_10 m c t, wblk_11 m c t, bblk_11 m c t]
  rfl

/-! ## Tile `t` of the output -/

/-- The input and output tiles move together down the rows, one tile per grid point, all 512 columns (decided). -/
theorem idx_tile : ∀ t : Fin cfg0.N, win0_0.index t (0 : Fin 2) = win0_25.index t (0 : Fin 2)
    ∧ win0_0.index t (1 : Fin 2) = 0 ∧ win0_25.index t (1 : Fin 2) = 0 :=
  (by decide +kernel : ∀ t : Fin grid0.N, _)

/-- Every one of the 64 row tiles is some grid point's. -/
theorem tile_onto : ∀ q : Fin 64, ∃ t : Fin cfg0.N, win0_25.index t = ![q.val, 0] :=
  (by decide +kernel : ∀ q : Fin 64, ∃ t : Fin grid0.N, win0_25.index t = ![q.val, 0])

/-- What grid point `t` writes back is tile `t` of the network's result on the whole input array. -/
theorem flushed_eq (c : Dev nD) (t : Fin cfg0.N) :
    (dats m 0 c).flushed 25 t = ((cfg0.win 25).blk t).view.read (Elt Ideal) (G m c) := by
  rw [Value.flushed25]
  funext j
  show out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) j = G m c (((cfg0.win 25).blk t).view.emb j)
  rw [out_eq, bparams_eq m c t]
  obtain ⟨e0, e1, e2⟩ := idx_tile t
  have h1 : ((cfg0.win 25).blk t).view.emb j 1 = j 1 :=
    Fin.ext (by show win0_25.index t (1 : Fin 2) * 512 + 1 * (j 1).val = (j 1).val; omega)
  have h0 : rowAt (iblk m c 0 t : Vec Ideal S2048x512 .f32) (j 0)
      = rowAt (m ((c.tc : Thread nD τ).loc main_arg0)) (((cfg0.win 25).blk t).view.emb j 0) := by
    funext q
    show V m c main_arg0 (((cfg0.win 0).blk t).view.emb (ix2 (j 0) q)) = (m ((c.tc : Thread nD τ).loc main_arg0)) (ix2 (((cfg0.win 25).blk t).view.emb j 0) q)
    rw [V_main_arg0]
    refine congrArg _ (funext fun a => Fin.ext ?_)
    match a with
    | ⟨0, _⟩ => show win0_0.index t (0 : Fin 2) * 2048 + 1 * (j 0).val = win0_25.index t (0 : Fin 2) * 2048 + 1 * (j 0).val; omega
    | ⟨1, _⟩ => show win0_0.index t (1 : Fin 2) * 512 + 1 * q.val = q.val; omega
  show net (params m c) (rowAt (iblk m c 0 t : Vec Ideal S2048x512 .f32) (j 0)) (j 1)
    = net (params m c) (rowAt (m ((c.tc : Thread nD τ).loc main_arg0)) (((cfg0.win 25).blk t).view.emb j 0)) (((cfg0.win 25).blk t).view.emb j 1)
  rw [h0, h1]

/-- An index of the output array is in grid point `t`'s tile iff each coordinate is in the tile's range. -/
theorem mem_tile (t : Fin cfg0.N) (i : S131072x512.Idx) :
    i ∈ ((cfg0.win 25).blk t).view.set ↔ ∀ a : Fin 2, win0_25.index t a * S2048x512.size a ≤ (i a).val ∧ (i a).val < win0_25.index t a * S2048x512.size a + S2048x512.size a := by
  show i ∈ ((View.whole main_v24).slice (win0_25.rect t)).set ↔ _
  rw [View.set_slice_whole, Rect.mem_set_unit]
  exact Iff.rfl

/-- The 64 tiles cover the output array: row `r` is in tile `r / 2048`. -/
theorem covered (i : S131072x512.Idx) :
    ∃ t : Fin cfg0.N, (cfg0.win 25).flush t = true ∧ i ∈ ((cfg0.win 25).blk t).view.set := by
  have hi0 : (i 0).val < 131072 := (i 0).isLt
  have hi1 : (i 1).val < 512 := (i 1).isLt
  obtain ⟨t, ht⟩ := tile_onto ⟨(i 0).val / 2048, by omega⟩
  have q0 : win0_25.index t (0 : Fin 2) = (i 0).val / 2048 := congrFun ht 0
  have q1 : win0_25.index t (1 : Fin 2) = 0 := congrFun ht 1
  refine ⟨t, flush0_25 t, ?_⟩
  rw [mem_tile]
  intro a
  match a with
  | ⟨0, _⟩ => show win0_25.index t (0 : Fin 2) * 2048 ≤ (i 0).val ∧ (i 0).val < win0_25.index t (0 : Fin 2) * 2048 + 2048; omega
  | ⟨1, _⟩ => show win0_25.index t (1 : Fin 2) * 512 ≤ (i 1).val ∧ (i 1).val < win0_25.index t (1 : Fin 2) * 512 + 512; omega

/-- The output array after the run is the network on every row of the first argument. -/
theorem final (c : Dev nD) : (dats m 0 c).arrAt 25 cfg0.N = G m c :=
  (dats m 0 c).arrAt_eq_of_cover 25 (G m c) (fun t _ => flushed_eq m c t) covered

/-! ## The run, read -/

/-- Every weakly fair execution of the kernel's program ends with the output array at the network on every row of
    the first argument, the arguments unchanged. -/
theorem run : θ_run defs (onTc (τ := τ) (main (F := Ideal))) ⟨m, fun _ => 0, ρ⟩ fun r => ∀ c : Dev nD,
      r.2.mem ((c.tc : Thread nD τ).loc main_v24) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun r h c => ⟨(h c).1.trans (final m c), (h c).2⟩) (Value.run_blocks m ρ)

end Cert.KernelIdeal.Hand

end
-- ==== Proof.RefRows.lean ====
import proofs.«413045_j84851373900034_3_alg».proof.Proof.Gen.ReferenceIdeal.Run
import proofs.«413045_j84851373900034_3_alg».proof.Proof.Net

/-!
# The reference's result, row by row

The reference applies the twelve layers to the whole 131072-row matrix: the host's product with the weight matrix,
the bias laid along every row, the maximum with zero. Each of these acts on every row by itself, so row `r` of the
result is the network applied to row `r` of the input.
-/

noncomputable section

namespace Cert.ReferenceIdeal.Rows

open Idealize.ShloMosaic Idealize.ShloMosaic.TcCoe Idealize.ShloMosaic.ValueIdx Idealize.SL.Sem
open Cert.ReferenceIdeal Cert.ReferenceIdeal.Gen Cert.ReferenceIdeal.Value Cert.Mlp

/-! ## The twelve products -/

/-- Layer 0's product on the host, one row. -/
theorem dot_0 {φ₁ φ₂ : FTy} (lhs : FVec Ideal S131072x512 φ₁) (rhs : FVec Ideal S512x256 φ₂) (r : Fin 131072) :
    rowAt (Host.dotGeneral dot_S131072x512_S512x256_S131072x256_1_0_0_1_n_n none lhs rhs) r = lin (mat rhs) (rowAt lhs r) :=
  dot_rowAt dot_S131072x512_S512x256_S131072x256_1_0_0_1_n_n rfl rfl rfl rfl rfl rfl none lhs rhs r

/-- Layer 1's product on the host, one row. -/
theorem dot_1 {φ₁ φ₂ : FTy} (lhs : FVec Ideal S131072x256 φ₁) (rhs : FVec Ideal S256x128 φ₂) (r : Fin 131072) :
    rowAt (Host.dotGeneral dot_S131072x256_S256x128_S131072x128_1_0_0_1_n_n none lhs rhs) r = lin (mat rhs) (rowAt lhs r) :=
  dot_rowAt dot_S131072x256_S256x128_S131072x128_1_0_0_1_n_n rfl rfl rfl rfl rfl rfl none lhs rhs r

/-- Layer 2's product on the host, one row. -/
theorem dot_2 {φ₁ φ₂ : FTy} (lhs : FVec Ideal S131072x128 φ₁) (rhs : FVec Ideal S128x64 φ₂) (r : Fin 131072) :
    rowAt (Host.dotGeneral dot_S131072x128_S128x64_S131072x64_1_0_0_1_n_n none lhs rhs) r = lin (mat rhs) (rowAt lhs r) :=
  dot_rowAt dot_S131072x128_S128x64_S131072x64_1_0_0_1_n_n rfl rfl rfl rfl rfl rfl none lhs rhs r

/-- Layer 3's product on the host, one row. -/
theorem dot_3 {φ₁ φ₂ : FTy} (lhs : FVec Ideal S131072x64 φ₁) (rhs : FVec Ideal S64x32 φ₂) (r : Fin 131072) :
    rowAt (Host.dotGeneral dot_S131072x64_S64x32_S131072x32_1_0_0_1_n_n none lhs rhs) r = lin (mat rhs) (rowAt lhs r) :=
  dot_rowAt dot_S131072x64_S64x32_S131072x32_1_0_0_1_n_n rfl rfl rfl rfl rfl rfl none lhs rhs r

/-- Layer 4's product on the host, one row. -/
theorem dot_4 {φ₁ φ₂ : FTy} (lhs : FVec Ideal S131072x32 φ₁) (rhs : FVec Ideal S32x16 φ₂) (r : Fin 131072) :
    rowAt (Host.dotGeneral dot_S131072x32_S32x16_S131072x16_1_0_0_1_n_n none lhs rhs) r = lin (mat rhs) (rowAt lhs r) :=
  dot_rowAt dot_S131072x32_S32x16_S131072x16_1_0_0_1_n_n rfl rfl rfl rfl rfl rfl none lhs rhs r

/-- Layer 5's product on the host, one row. -/
theorem dot_5 {φ₁ φ₂ : FTy} (lhs : FVec Ideal S131072x16 φ₁) (rhs : FVec Ideal S16x5 φ₂) (r : Fin 131072) :
    rowAt (Host.dotGeneral dot_S131072x16_S16x5_S131072x5_1_0_0_1_n_n none lhs rhs) r = lin (mat rhs) (rowAt lhs r) :=
  dot_rowAt dot_S131072x16_S16x5_S131072x5_1_0_0_1_n_n rfl rfl rfl rfl rfl rfl none lhs rhs r

/-- Layer 6's product on the host, one row. -/
theorem dot_6 {φ₁ φ₂ : FTy} (lhs : FVec Ideal S131072x5 φ₁) (rhs : FVec Ideal S5x16 φ₂) (r : Fin 131072) :
    rowAt (Host.dotGeneral dot_S131072x5_S5x16_S131072x16_1_0_0_1_n_n none lhs rhs) r = lin (mat rhs) (rowAt lhs r) :=
  dot_rowAt dot_S131072x5_S5x16_S131072x16_1_0_0_1_n_n rfl rfl rfl rfl rfl rfl none lhs rhs r

/-- Layer 7's product on the host, one row. -/
theorem dot_7 {φ₁ φ₂ : FTy} (lhs : FVec Ideal S131072x16 φ₁) (rhs : FVec Ideal S16x32 φ₂) (r : Fin 131072) :
    rowAt (Host.dotGeneral dot_S131072x16_S16x32_S131072x32_1_0_0_1_n_n none lhs rhs) r = lin (mat rhs) (rowAt lhs r) :=
  dot_rowAt dot_S131072x16_S16x32_S131072x32_1_0_0_1_n_n rfl rfl rfl rfl rfl rfl none lhs rhs r

/-- Layer 8's product on the host, one row. -/
theorem dot_8 {φ₁ φ₂ : FTy} (lhs : FVec Ideal S131072x32 φ₁) (rhs : FVec Ideal S32x64 φ₂) (r : Fin 131072) :
    rowAt (Host.dotGeneral dot_S131072x32_S32x64_S131072x64_1_0_0_1_n_n none lhs rhs) r = lin (mat rhs) (rowAt lhs r) :=
  dot_rowAt dot_S131072x32_S32x64_S131072x64_1_0_0_1_n_n rfl rfl rfl rfl rfl rfl none lhs rhs r

/-- Layer 9's product on the host, one row. -/
theorem dot_9 {φ₁ φ₂ : FTy} (lhs : FVec Ideal S131072x64 φ₁) (rhs : FVec Ideal S64x128 φ₂) (r : Fin 131072) :
    rowAt (Host.dotGeneral dot_S131072x64_S64x128_S131072x128_1_0_0_1_n_n none lhs rhs) r = lin (mat rhs) (rowAt lhs r) :=
  dot_rowAt dot_S131072x64_S64x128_S131072x128_1_0_0_1_n_n rfl rfl rfl rfl rfl rfl none lhs rhs r

/-- Layer 10's product on the host, one row. -/
theorem dot_10 {φ₁ φ₂ : FTy} (lhs : FVec Ideal S131072x128 φ₁) (rhs : FVec Ideal S128x256 φ₂) (r : Fin 131072) :
    rowAt (Host.dotGeneral dot_S131072x128_S128x256_S131072x256_1_0_0_1_n_n none lhs rhs) r = lin (mat rhs) (rowAt lhs r) :=
  dot_rowAt dot_S131072x128_S128x256_S131072x256_1_0_0_1_n_n rfl rfl rfl rfl rfl rfl none lhs rhs r

/-- Layer 11's product on the host, one row. -/
theorem dot_11 {φ₁ φ₂ : FTy} (lhs : FVec Ideal S131072x256 φ₁) (rhs : FVec Ideal S256x512 φ₂) (r : Fin 131072) :
    rowAt (Host.dotGeneral dot_S131072x256_S256x512_S131072x512_1_0_0_1_n_n none lhs rhs) r = lin (mat rhs) (rowAt lhs r) :=
  dot_rowAt dot_S131072x256_S256x512_S131072x512_1_0_0_1_n_n rfl rfl rfl rfl rfl rfl none lhs rhs r

/-! ## The result -/

variable (m : (ℓ : Loc nD τ sig) → Buf (Elt Ideal) ℓ)

/-- The network's parameters read off the reference's argument arrays. -/
abbrev params (c : Dev nD) : Params :=
  arrParams (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))

/-- Row `r` of the reference's result is the network on row `r` of its first argument. -/
theorem res_row (c : Dev nD) (r : Fin 131072) :
    rowAt (res_main_v59 (F := Ideal) m c) r = net (params m c) (rowAt (m ((c.tc : Thread nD τ).loc main_arg0)) r) := by
  unfold res_main_v59
  rw [hostRelu_rowAt, hostBias_rowAt, dot_11,
    hostRelu_rowAt, hostBias_rowAt, dot_10,
    hostRelu_rowAt, hostBias_rowAt, dot_9,
    hostRelu_rowAt, hostBias_rowAt, dot_8,
    hostRelu_rowAt, hostBias_rowAt, dot_7,
    hostRelu_rowAt, hostBias_rowAt, dot_6,
    hostRelu_rowAt, hostBias_rowAt, dot_5,
    hostRelu_rowAt, hostBias_rowAt, dot_4,
    hostRelu_rowAt, hostBias_rowAt, dot_3,
    hostRelu_rowAt, hostBias_rowAt, dot_2,
    hostRelu_rowAt, hostBias_rowAt, dot_1,
    hostRelu_rowAt, hostBias_rowAt, dot_0]
  rfl

/-- The reference's result is the network on every row of its first argument. -/
theorem res_eq (c : Dev nD) :
    (res_main_v59 (F := Ideal) m c : S131072x512.Idx → EReal) = rowsNet (params m c) (m ((c.tc : Thread nD τ).loc main_arg0)) := by
  funext i
  obtain ⟨r, k, rfl⟩ : ∃ (r : Fin 131072) (k : Fin 512), i = ix2 r k := ⟨i 0, i 1, eq_ix2 i⟩
  exact congrFun (res_row m c r) k

end Cert.ReferenceIdeal.Rows

end
-- ==== Proof.lean ====
/- The twelve-layer dense network with ReLU (512 → 256 → … → 5 → … → 512), fused into one tiled kernel, against the
   plain layer-by-layer reference. Over the extended reals both apply the same function to every row of the input:
   row `r` of the result is `net` (Proof/Net.lean) of row `r`, where each layer sends a row `h` to
   `max (h · W + b) 0`. On the kernel's side the narrowing of activations and weights to bf16 is the identity there, a
   product on the matrix unit into a zero accumulator is the plain sum of products (Proof/KernelRows.lean), each grid
   point fills its 2048-row tile with the network on the matching input rows in two halves, and the 64 tiles cover the
   output (Proof/KernelValue.lean). On the reference's side the host's product is the same sum of products and the
   bias and the maximum act row by row (Proof/RefRows.lean). No law beyond the definitions is needed, so the
   precondition is never opened: sums of the same terms in the same order stand on both sides. The three frames are the
   generated ones (the reference's is its generated run with the result dropped); the idealization rewrote nothing,
   so there is nothing to preserve. -/
import proofs.«413045_j84851373900034_3_alg».proof.Defs
import proofs.«413045_j84851373900034_3_alg».proof.Proof.Gen.Kernel
import proofs.«413045_j84851373900034_3_alg».proof.Proof.Gen.Kernel.Skeleton
import proofs.«413045_j84851373900034_3_alg».proof.Proof.Gen.Kernel.Launch
import proofs.«413045_j84851373900034_3_alg».proof.Proof.Gen.Kernel.Points
import proofs.«413045_j84851373900034_3_alg».proof.Proof.Gen.Kernel.Frame
import proofs.«413045_j84851373900034_3_alg».proof.Proof.Gen.KernelIdeal
import proofs.«413045_j84851373900034_3_alg».proof.Proof.Gen.KernelIdeal.Skeleton
import proofs.«413045_j84851373900034_3_alg».proof.Proof.Gen.KernelIdeal.Launch
import proofs.«413045_j84851373900034_3_alg».proof.Proof.Gen.KernelIdeal.Points
import proofs.«413045_j84851373900034_3_alg».proof.Proof.Gen.KernelIdeal.Frame
import proofs.«413045_j84851373900034_3_alg».proof.Proof.Gen.ReferenceIdeal
import proofs.«413045_j84851373900034_3_alg».proof.Proof.Gen.Pre_finite_inputs
import proofs.«413045_j84851373900034_3_alg».proof.Proof.Gen.KernelIdeal.Value
import proofs.«413045_j84851373900034_3_alg».proof.Proof.Gen.ReferenceIdeal.Run
import proofs.«413045_j84851373900034_3_alg».proof.Proof.KernelValue
import proofs.«413045_j84851373900034_3_alg».proof.Proof.RefRows
import Idealize.ShloMosaic.Adequacy
import Idealize.ShloMosaic.Init

noncomputable section

namespace Cert.Proof

open Idealize.ShloMosaic Idealize.SL.Sem Cert.Mlp

/-- The word-level kernel's frame: generated whole. -/
theorem frame_k : Cert.frame_Kernel := fun m ρ _ => Cert.Kernel.Gen.frame m ρ

/-- The idealized kernel's frame: generated whole. -/
theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network on every row of the first argument, over parameters read off arguments that
    agree. -/
theorem algebraic : Cert.algebraic_KernelIdeal_ReferenceIdeal := by
  intro m ρ m' ρ' _ hagree
  refine ⟨fun c => Cert.KernelIdeal.Hand.G m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24⟩ := hagree c
  refine (Cert.ReferenceIdeal.Rows.res_eq m' c).trans ?_
  exact rowsNet_congr h0 h1 h2 h3 h4 h5 h6 h7 h8 h9 h10 h11 h12 h13 h14 h15 h16 h17 h18 h19 h20 h21 h22 h23 h24

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
